-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_temperature" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192x256 .f32) (main_arg1 : FVec F S8192x256 .f32) (main_arg2 : FVec F S8192x8192 .f32) (main_arg3 : IVec S8192x8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  main_v13
-- ==== Kernel.lean ====
abbrev S8192x256 : Shape := ⟨2, ![8192, 256]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S512x256 : Shape := ⟨2, ![512, 256]⟩
abbrev S1024x256 : Shape := ⟨2, ![1024, 256]⟩
abbrev S512x1024 : Shape := ⟨2, ![512, 1024]⟩
abbrev S512x1 : Shape := ⟨2, ![512, 1]⟩
abbrev S512 : Shape := ⟨1, ![512]⟩

abbrev nBuf : Space → Nat
  | .hbm => 29
  | .vmem => 14
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x8192, .f32⟩
  | .hbm, ⟨3, _⟩ => ⟨S8192x8192, .i32⟩
  | .hbm, ⟨4, _⟩ => ⟨S8192x256, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x256, .f32⟩
  | .hbm, ⟨13, _⟩ => ⟨S8192x256, .f32⟩
  | .hbm, ⟨14, _⟩ => ⟨S8192x256, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x256, .f32⟩
  | .hbm, ⟨23, _⟩ => ⟨S8192x256, .f32⟩
  | .hbm, ⟨24, _⟩ => ⟨S8192x256, .bf16⟩
  | .hbm, ⟨25, _⟩ => ⟨S8192x256, .bf16⟩
  | .hbm, ⟨26, _⟩ => ⟨S8192x1, .f32⟩
  | .hbm, ⟨27, _⟩ => ⟨S_, .f32⟩
  | .hbm, ⟨28, _⟩ => ⟨S_, .f32⟩
  | .local _ .vmem, ⟨0, _⟩ => ⟨S512x256, .bf16⟩
  | .local _ .vmem, ⟨1, _⟩ => ⟨S512x256, .bf16⟩
  | .local _ .vmem, ⟨2, _⟩ => ⟨S1024x256, .bf16⟩
  | .local _ .vmem, ⟨3, _⟩ => ⟨S1024x256, .bf16⟩
  | .local _ .vmem, ⟨4, _⟩ => ⟨S512x1024, .f32⟩
  | .local _ .vmem, ⟨5, _⟩ => ⟨S512x1024, .f32⟩
  | .local _ .vmem, ⟨6, _⟩ => ⟨S512x1024, .i32⟩
  | .local _ .vmem, ⟨7, _⟩ => ⟨S512x1024, .i32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v44 : BitVec 1 := Scalar.cmpi .eq arg1 c7_i32
  let v45 : BitVec 32 := Scalar.extui v44
  let c0_i32_29 : BitVec 32 := 0#32
  let v46 : BitVec 1 := Scalar.cmpi .ne v45 c0_i32_29
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  reducesTo_S8192x1_S_d0_1 : S8192x1.ReducesTo [0, 1] S_
  dot_S512x256_S1024x256_S512x1024_1_1_0_0_n_n_wf : DotDims.WF S512x256 S1024x256 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .bf16 = 32 ∨ (Rect.block (s := S8192x256) S512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x8192.size a
  hwx0_2 : ∀ i : grid0.Coords, EltTy.bits .f32 = 32 ∨ (Rect.block (s := S8192x8192) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x8192.size a
  hwx0_3 : ∀ i : grid0.Coords, EltTy.bits .i32 = 32 ∨ (Rect.block (s := S8192x8192) S512x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)

variable [Facts₀]

def dot_S512x256_S1024x256_S512x1024_1_1_0_0_n_n : DotDims S512x256 S1024x256 S512x1024 where
  lhsContracting := [1]
  rhsContracting := [1]
  lhsNonContracting := [0]
  rhsNonContracting := [0]
  lhsBatch := []
  rhsBatch := []
  wf := dot_S512x256_S1024x256_S512x1024_1_1_0_0_n_n_wf

abbrev win0_0 : Pipeline.Window sig grid0 :=
  Pipeline.Window.ofSpec (Memref.whole main_v10) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 57
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x8192, .f32⟩
  | .hbm, ⟨3, _⟩ => ⟨S8192x8192, .i32⟩
  | .hbm, ⟨4, _⟩ => ⟨S8192x256, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x256, .f32⟩
  | .hbm, ⟨13, _⟩ => ⟨S8192x256, .f32⟩
  | .hbm, ⟨14, _⟩ => ⟨S8192x256, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x256, .f32⟩
  | .hbm, ⟨23, _⟩ => ⟨S8192x256, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S8192x1, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S8192x8192, .f32⟩
  | .hbm, ⟨50, _⟩ => ⟨S8192x8192, .f32⟩
  | .hbm, ⟨51, _⟩ => ⟨S_, .f32⟩
  | .hbm, ⟨52, _⟩ => ⟨S8192, .f32⟩
  | .hbm, ⟨53, _⟩ => ⟨S8192, .f32⟩
  | .hbm, ⟨54, _⟩ => ⟨S8192, .f32⟩
  | .hbm, ⟨55, _⟩ => ⟨S_, .f32⟩
  | .hbm, ⟨56, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_call2_cst : Ref sig .tc := ⟨.hbm, 28, rfl⟩
abbrev main_call2_v0 : Ref sig .tc := ⟨.hbm, 29, rfl⟩
abbrev main_call2_cst_0 : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_call2_v5 : Ref sig .tc := ⟨.hbm, 35, rfl⟩
abbrev main_call2_v6 : Ref sig .tc := ⟨.hbm, 36, rfl⟩
abbrev main_call2_cst_1 : Ref sig .tc := ⟨.hbm, 37, rfl⟩
abbrev main_call2_v7 : Ref sig .tc := ⟨.hbm, 38, rfl⟩
abbrev main_call2_v8 : Ref sig .tc := ⟨.hbm, 39, rfl⟩
abbrev main_call2_v9 : Ref sig .tc := ⟨.hbm, 40, rfl⟩
abbrev main_call2_v10 : Ref sig .tc := ⟨.hbm, 41, rfl⟩
abbrev main_v13 : Ref sig .tc := ⟨.hbm, 42, rfl⟩
abbrev main_v14 : Ref sig .tc := ⟨.hbm, 43, rfl⟩
abbrev main_cst_2 : Ref sig .tc := ⟨.hbm, 44, rfl⟩
abbrev main_v15 : Ref sig .tc := ⟨.hbm, 45, rfl⟩
abbrev main_cst_3 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_4 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_cst_5 : Ref sig .tc := ⟨.hbm, 55, rfl⟩
abbrev main_v23 : Ref sig .tc := ⟨.hbm, 56, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  bcast_S8192x1_S8192x8192_0_1 : S8192x1.BroadcastsInDim S8192x8192 (![0, 1] : Fin 2 → Fin S8192x8192.rank)
  reducesTo_S8192_S_d0 : S8192.ReducesTo [0] S_
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.Spec.lean ====
/-
  The contrastive row loss both programs compute, as functions on the extended reals.

  Inputs: two matrices `a1 a2 : [8192, 256]` (the row-normalised texts), weights `w : [8192, 8192]` and an integer
  mask `mk : [8192, 8192]`.  With `dot i j = ∑ d, a1 i d * a2 j d`:

  * kernel side: `sim i j = dot i j * κ` with `κ = 268435456 / 13421773` (the reciprocal of the binary value of the
    f32 literal 0.05), four row sums
      `A i = ∑ j, (m i j * w i j) * sim i j`,  `S i = ∑ j, m i j * w i j`,
      `E i = ∑ j, exp (sim i j)`,              `C i = ∑ j, m i j`,
    and `loss i = (0 - (A i - log (E i) * S i)) / max (C i) 1`;
  * reference side: `sim i j = dot i j / 0.05`, a row shift `M i`, the shifted log-softmax
      `logp i j = (sim i j - M i) - log (∑ j', exp (sim i j' - M i))`,
    and `loss i = -(∑ j, (m i j * w i j) * logp i j) / max (C i) 1`.

  The result of either program is the sum of its row losses.
-/
import Idealize.ShloMosaic.PureOps.Ideal
import Idealize.ShloMosaic.Lib.ValueIdx

noncomputable section

namespace Cert.Loss

open Idealize.ShloMosaic Idealize.ShloMosaic.ValueIdx
open scoped BigOperators

/-- The shape of the two text matrices. -/
abbrev SX : Shape := ⟨2, ![8192, 256]⟩
/-- The shape of the weights and of the mask. -/
abbrev SW : Shape := ⟨2, ![8192, 8192]⟩

/-- The binary value of the f32 literal `1e-8`, the floor under a row's norm. -/
def eps : EReal := Ideal.ofBits .f32 0x322BCC77#32
/-- The binary value of the f32 literal `0.05`, the reference's divisor. -/
def temp : EReal := Ideal.ofBits .f32 0x3D4CCCCD#32
/-- The f32 literal `1.0`, the floor under a row's count. -/
def one : EReal := Ideal.ofBits .f32 0x3F800000#32
/-- The kernel's scale: the reciprocal of `temp`'s value, as the exact rational. -/
def κ : EReal := ((268435456 / 13421773 : ℝ) : EReal)

/-- A matrix with every row divided by the larger of its Euclidean norm and `eps`. -/
def normRows (x : SX.Idx → EReal) : SX.Idx → EReal := fun p =>
  Ideal.div (x p) (max (Ideal.sqrt (∑ k : Fin 256, x (ix2 (p 0) k) * x (ix2 (p 0) k))) eps)

section
variable (a1 a2 : SX.Idx → EReal) (w : SW.Idx → EReal) (mk : SW.Idx → BitVec 32)

/-- Row `i` of the first matrix against row `j` of the second. -/
def dot (i j : Fin 8192) : EReal := ∑ d : Fin 256, a1 (ix2 i d) * a2 (ix2 j d)
/-- The mask entry as a number. -/
def mf (i j : Fin 8192) : EReal := (((mk (ix2 i j)).toInt : ℝ) : EReal)
/-- Mask times weight. -/
def mw (i j : Fin 8192) : EReal := mf mk i j * w (ix2 i j)

/-! ### The kernel's form -/

def simK (i j : Fin 8192) : EReal := dot a1 a2 i j * κ
def sumA (i : Fin 8192) : EReal := ∑ j : Fin 8192, mw w mk i j * simK a1 a2 i j
def sumS (i : Fin 8192) : EReal := ∑ j : Fin 8192, mw w mk i j
def sumE (i : Fin 8192) : EReal := ∑ j : Fin 8192, Ideal.exp (simK a1 a2 i j)
def sumC (i : Fin 8192) : EReal := ∑ j : Fin 8192, mf mk i j
def lossK (i : Fin 8192) : EReal :=
  Ideal.div (0 - (sumA a1 a2 w mk i - Ideal.log (sumE a1 a2 i) * sumS w mk i)) (max (sumC mk i) one)
def totalK : EReal := ∑ i : Fin 8192, lossK a1 a2 w mk i

/-! ### The reference's form, over a row shift `M` -/

def simR (i j : Fin 8192) : EReal := Ideal.div (dot a1 a2 i j) temp
def logpR (M : Fin 8192 → EReal) (i j : Fin 8192) : EReal :=
  (simR a1 a2 i j - M i) - Ideal.log (∑ j' : Fin 8192, Ideal.exp (simR a1 a2 i j' - M i))
def lossR (M : Fin 8192 → EReal) (i : Fin 8192) : EReal :=
  Ideal.div (-(∑ j : Fin 8192, mw w mk i j * logpR a1 a2 M i j)) (max (sumC mk i) one)
def totalR (M : Fin 8192 → EReal) : EReal := ∑ i : Fin 8192, lossR a1 a2 w mk M i
/-- The largest similarity of a row: the shift the reference's log-softmax subtracts. -/
def rowMax (i : Fin 8192) : EReal := Finset.univ.sup (fun j : Fin 8192 => simR a1 a2 i j)

end

end Cert.Loss

end
-- ==== Proof.Algebra.lean ====
/-
  The law that joins the two forms of the loss: for real (finite) normalised texts, weights and row shift, the
  reference's shifted log-softmax form equals the kernel's four-sums form, row by row.

  With every entry real: `x / 0.05₃₂ = x * κ`; `log ∑ exp (s - M) = log ∑ exp s - M`, so the shift cancels; and
  `∑ mw * (s - L) = ∑ mw * s - L * ∑ mw`.
-/
import proofs.«161606_j53386443489488_1_alg».proof.Proof.Spec
import Mathlib.Analysis.SpecialFunctions.Log.Basic
import Mathlib.Analysis.SpecialFunctions.Exp
import Mathlib.Analysis.SpecialFunctions.Sqrt

set_option maxRecDepth 16384

noncomputable section

namespace Cert.Loss

open Idealize.ShloMosaic Idealize.ShloMosaic.ValueIdx
open scoped BigOperators

/-! ### Coercions of reals through finite sums and `max` -/

/-- The coercion of a finite sum of reals is the sum of the coercions. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion is monotone, so it commutes with `max`. -/
private theorem coe_max' (x y : ℝ) : ((max x y : ℝ) : EReal) = max (x : EReal) (y : EReal) :=
  (EReal.coe_strictMono.monotone).map_max

/-! ### The two literals as rationals -/

/-- The pattern of `1e-8`: `11258999 · 2⁻⁵⁰`. -/
private theorem eps_eq : eps = ((11258999 / 1125899906842624 : ℝ) : EReal) := by
  simp [eps, Ideal.ofBits, Ideal.ieee, -EReal.coe_mul]; norm_num

/-- The pattern of `0.05`: `13421773 · 2⁻²⁸`. -/
private theorem temp_eq : temp = ((13421773 / 268435456 : ℝ) : EReal) := by
  simp [temp, Ideal.ofBits, Ideal.ieee, -EReal.coe_mul]; norm_num

/-! ### The real-variable identities -/

/-- A common shift leaves the log of a sum of exponentials shifted by the same amount. -/
private theorem log_sum_exp_sub {ι : Type*} [Fintype ι] [Nonempty ι] (s : ι → ℝ) (c : ℝ) :
    Real.log (∑ j, Real.exp (s j - c)) = Real.log (∑ j, Real.exp (s j)) - c := by
  have hpos : 0 < ∑ j, Real.exp (s j) := Finset.sum_pos (fun j _ => Real.exp_pos _) Finset.univ_nonempty
  have h : ∑ j, Real.exp (s j - c) = (∑ j, Real.exp (s j)) * Real.exp (-c) := by
    rw [Finset.sum_mul]; refine Finset.sum_congr rfl (fun j _ => ?_); rw [sub_eq_add_neg, Real.exp_add]
  rw [h, Real.log_mul hpos.ne' (Real.exp_pos _).ne', Real.log_exp]; ring

/-- A sum of exponentials of reals is the coerced real sum. -/
private theorem sum_exp_coe {ι : Type*} [Fintype ι] (s : ι → ℝ) :
    (∑ j, Ideal.exp ((s j : ℝ) : EReal)) = ((∑ j, Real.exp (s j) : ℝ) : EReal) := by
  rw [coe_sum]; rfl

/-- The sum of exponentials is positive, so its log is the real log. -/
private theorem log_sum_exp_coe {ι : Type*} [Fintype ι] [Nonempty ι] (s : ι → ℝ) :
    Ideal.log (∑ j, Ideal.exp ((s j : ℝ) : EReal)) = ((Real.log (∑ j, Real.exp (s j)) : ℝ) : EReal) := by
  have hpos : 0 < ∑ j, Real.exp (s j) := Finset.sum_pos (fun j _ => Real.exp_pos _) Finset.univ_nonempty
  rw [sum_exp_coe, Ideal.log_coe, if_neg (not_le.mpr hpos)]

/-- The weighted sum of `s - L`, with the shift `c` cancelled, splits into the two sums. -/
private theorem real_row {ι : Type*} [Fintype ι] (m s : ι → ℝ) (c L : ℝ) :
    -(∑ j, m j * (s j - c - (L - c))) = 0 - ((∑ j, m j * s j) - L * ∑ j, m j) := by
  have h : ∀ j, m j * (s j - c - (L - c)) = m j * s j - L * m j := fun j => by ring
  simp only [h]
  rw [Finset.sum_sub_distrib, ← Finset.mul_sum]; ring

/-- One row's numerators agree, over any finite nonempty index type, for real weights `m`, similarities `s` and
    shift `c`. -/
private theorem row_identity {ι : Type*} [Fintype ι] [Nonempty ι] (m s : ι → ℝ) (c : ℝ) :
    -(∑ j, (m j : EReal) * (((s j : ℝ) : EReal) - (c : EReal)
        - Ideal.log (∑ j', Ideal.exp (((s j' : ℝ) : EReal) - (c : EReal)))))
    = 0 - ((∑ j, (m j : EReal) * ((s j : ℝ) : EReal))
        - Ideal.log (∑ j, Ideal.exp ((s j : ℝ) : EReal)) * ∑ j, (m j : EReal)) := by
  have e1 : (∑ j', Ideal.exp (((s j' : ℝ) : EReal) - (c : EReal)))
      = ∑ j', Ideal.exp (((s j' - c : ℝ)) : EReal) := by
    refine Finset.sum_congr rfl (fun j _ => ?_); rw [EReal.coe_sub]
  rw [e1, log_sum_exp_coe (fun j => s j - c), log_sum_exp_coe s, log_sum_exp_sub s c]
  set L := Real.log (∑ j, Real.exp (s j)) with hL
  have e2 : (∑ j, (m j : EReal) * (((s j : ℝ) : EReal) - (c : EReal) - ((L - c : ℝ) : EReal)))
      = ((∑ j, m j * (s j - c - (L - c)) : ℝ) : EReal) := by
    rw [coe_sum]; refine Finset.sum_congr rfl (fun j _ => ?_)
    simp only [EReal.coe_mul, EReal.coe_sub]
  have e3 : (∑ j, (m j : EReal) * ((s j : ℝ) : EReal)) = ((∑ j, m j * s j : ℝ) : EReal) := by
    rw [coe_sum]; refine Finset.sum_congr rfl (fun j _ => ?_); rw [EReal.coe_mul]
  have e4 : (∑ j, (m j : EReal)) = ((∑ j, m j : ℝ) : EReal) := (coe_sum _ _).symm
  rw [e2, e3, e4, ← EReal.coe_neg, ← EReal.coe_mul, ← EReal.coe_sub, ← EReal.coe_zero, ← EReal.coe_sub,
    real_row m s c L]

/-! ### The definitions on real data -/

/-- A dot product of real rows is the coerced real dot product. -/
private theorem dot_coe (a1 a2 : SX.Idx → EReal) (r1 r2 : SX.Idx → ℝ)
    (h1 : ∀ q, a1 q = (r1 q : EReal)) (h2 : ∀ q, a2 q = (r2 q : EReal)) (i j : Fin 8192) :
    dot a1 a2 i j = ((∑ d : Fin 256, r1 (ix2 i d) * r2 (ix2 j d) : ℝ) : EReal) := by
  unfold dot
  rw [coe_sum]; refine Finset.sum_congr rfl (fun d _ => ?_); rw [h1, h2, EReal.coe_mul]

/-- Dividing by the value of `0.05` is multiplying by its exact reciprocal: the two similarities are one. -/
private theorem simR_eq_simK (a1 a2 : SX.Idx → EReal) (i j : Fin 8192) :
    simR a1 a2 i j = simK a1 a2 i j := by
  unfold simR simK κ
  rw [temp_eq, Ideal.div_coe (by norm_num)]
  congr 2; norm_num

/-- The kernel's similarity of real rows, as a coerced real. -/
private theorem simK_coe (a1 a2 : SX.Idx → EReal) (r1 r2 : SX.Idx → ℝ)
    (h1 : ∀ q, a1 q = (r1 q : EReal)) (h2 : ∀ q, a2 q = (r2 q : EReal)) (i j : Fin 8192) :
    simK a1 a2 i j = (((∑ d : Fin 256, r1 (ix2 i d) * r2 (ix2 j d)) * (268435456 / 13421773) : ℝ) : EReal) := by
  unfold simK κ
  rw [dot_coe a1 a2 r1 r2 h1 h2, EReal.coe_mul]

/-- Normalising rows of real numbers gives real numbers (the divisor is at least `eps > 0`). -/
theorem normRows_real (x : SX.Idx → EReal) (hx : ∀ q, ∃ r : ℝ, x q = (r : EReal)) :
    ∀ q, ∃ r : ℝ, normRows x q = (r : EReal) := by
  intro q
  choose xr hxr using hx
  have hsum : (∑ k : Fin 256, x (ix2 (q 0) k) * x (ix2 (q 0) k))
      = ((∑ k : Fin 256, xr (ix2 (q 0) k) * xr (ix2 (q 0) k) : ℝ) : EReal) := by
    rw [coe_sum]; refine Finset.sum_congr rfl (fun k _ => ?_); rw [hxr, EReal.coe_mul]
  have hnn : ¬ (∑ k : Fin 256, xr (ix2 (q 0) k) * xr (ix2 (q 0) k)) < 0 :=
    not_lt.mpr (Finset.sum_nonneg (fun k _ => mul_self_nonneg _))
  have hpos : (0 : ℝ) < 11258999 / 1125899906842624 := by norm_num
  unfold normRows
  rw [hsum, Ideal.sqrt_coe, if_neg hnn, eps_eq, ← coe_max',
    Ideal.div_coe (ne_of_gt (lt_max_of_lt_right hpos)), hxr, ← EReal.coe_mul]
  exact ⟨_, rfl⟩

/-- The reference's similarities of real matrices are real. -/
theorem simR_real (a1 a2 : SX.Idx → EReal) (h1 : ∀ q, ∃ r : ℝ, a1 q = (r : EReal)) (h2 : ∀ q, ∃ r : ℝ, a2 q = (r : EReal)) :
    ∀ i j, ∃ r : ℝ, simR a1 a2 i j = (r : EReal) := by
  intro i j
  choose r1 hr1 using h1
  choose r2 hr2 using h2
  exact ⟨_, (simR_eq_simK a1 a2 i j).trans (simK_coe a1 a2 r1 r2 hr1 hr2 i j)⟩

/-- A row's largest similarity is real when the similarities are (the row is not empty). -/
theorem rowMax_real (a1 a2 : SX.Idx → EReal) (h1 : ∀ q, ∃ r : ℝ, a1 q = (r : EReal)) (h2 : ∀ q, ∃ r : ℝ, a2 q = (r : EReal)) :
    ∀ i, ∃ r : ℝ, rowMax a1 a2 i = (r : EReal) := by
  intro i
  choose s hs using simR_real a1 a2 h1 h2
  have hbot : rowMax a1 a2 i ≠ ⊥ := by
    have hle : simR a1 a2 i 0 ≤ rowMax a1 a2 i :=
      Finset.le_sup (f := fun j : Fin 8192 => simR a1 a2 i j) (Finset.mem_univ (0 : Fin 8192))
    intro h
    rw [h, hs] at hle
    exact EReal.coe_ne_bot _ (le_bot_iff.mp hle)
  have htop : rowMax a1 a2 i ≠ ⊤ := by
    apply ne_of_lt
    unfold rowMax
    rw [Finset.sup_lt_iff (bot_lt_top : (⊥ : EReal) < ⊤)]
    intro j _
    rw [hs]; exact EReal.coe_lt_top _
  exact ⟨(rowMax a1 a2 i).toReal, (EReal.coe_toReal htop hbot).symm⟩

/-- The two forms agree on real data, whatever the (real) row shift. -/
theorem totalR_eq_totalK (a1 a2 : SX.Idx → EReal) (w : SW.Idx → EReal) (mk : SW.Idx → BitVec 32) (M : Fin 8192 → EReal)
    (h1 : ∀ q, ∃ r : ℝ, a1 q = (r : EReal)) (h2 : ∀ q, ∃ r : ℝ, a2 q = (r : EReal))
    (hw : ∀ q, ∃ r : ℝ, w q = (r : EReal)) (hM : ∀ i, ∃ r : ℝ, M i = (r : EReal)) :
    totalR a1 a2 w mk M = totalK a1 a2 w mk := by
  choose r1 hr1 using h1
  choose r2 hr2 using h2
  choose wr hwr using hw
  choose Mr hMr using hM
  unfold totalR totalK
  refine Finset.sum_congr rfl (fun i _ => ?_)
  unfold lossR lossK
  congr 1
  -- the row's real similarities and real mask-times-weight
  have hk : ∀ j, simK a1 a2 i j
      = (((∑ d : Fin 256, r1 (ix2 i d) * r2 (ix2 j d)) * (268435456 / 13421773) : ℝ) : EReal) :=
    fun j => simK_coe a1 a2 r1 r2 hr1 hr2 i j
  have hs : ∀ j, simR a1 a2 i j
      = (((∑ d : Fin 256, r1 (ix2 i d) * r2 (ix2 j d)) * (268435456 / 13421773) : ℝ) : EReal) :=
    fun j => (simR_eq_simK a1 a2 i j).trans (hk j)
  have hm : ∀ j, mw w mk i j = (((((mk (ix2 i j)).toInt : ℝ)) * wr (ix2 i j) : ℝ) : EReal) := by
    intro j; unfold mw mf; rw [hwr, EReal.coe_mul]
  unfold logpR sumA sumS sumE
  simp only [hk, hs, hm, hMr]
  exact row_identity (fun j => (((mk (ix2 i j)).toInt : ℝ)) * wr (ix2 i j))
    (fun j => (∑ d : Fin 256, r1 (ix2 i d) * r2 (ix2 j d)) * (268435456 / 13421773)) (Mr i)

end Cert.Loss

end
-- ==== Proof.Finite.lean ====
/-
  What the precondition says: every entry of the two text matrices and of the weights is a real number.

  The precondition compares `|x| < +∞` entry by entry, takes the conjunction over both axes of each of the three
  arrays, and takes the conjunction of the three results.  Read backwards: the final word is 1, so each of the three
  conjunctions is 1, so each single comparison is 1; and an extended real whose absolute value `max x (-x)` lies
  strictly below `+∞` is neither `+∞` nor `-∞` (for both, `max x (-x) = +∞`), hence a real number.
-/
import proofs.«161606_j53386443489488_1_alg».proof.Proof.Gen.Pre_finite_inputs
import proofs.«161606_j53386443489488_1_alg».proof.Proof.Spec
import Idealize.ShloMosaic.Lib.ReduceAll

set_option maxRecDepth 16384

noncomputable section

namespace Cert.Finite

open Idealize.ShloMosaic Idealize.ShloMosaic.ValueIdx
open scoped BigOperators

/-- The f32 pattern `0x7F800000` (sign 0, exponent all ones, significand 0) denotes `+∞`. -/
private theorem inf_bits : Ideal.ofBits .f32 0x7F800000#32 = (⊤ : EReal) := by
  simp [Ideal.ofBits, Ideal.ieee]

/-- An extended real whose absolute value `max x (-x)` lies strictly below `+∞` is a real number:
    at `x = -∞` and at `x = +∞` the absolute value is `+∞` itself. -/
private theorem real_of_abs_lt_top (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have hb : FloatOps.ofBits (F := Ideal) .f32 0x7F800000#32 = (⊤ : EReal) := inf_bits
  rw [hb] at h
  induction x using EReal.rec with
  | bot =>
    change Ideal.cmp .olt (max (⊥ : EReal) (-⊥)) ⊤ = 1#1 at h
    simp [Ideal.cmp] at h
  | top =>
    change Ideal.cmp .olt (max (⊤ : EReal) (-⊤)) ⊤ = 1#1 at h
    simp [Ideal.cmp] at h
  | coe r => exact ⟨r, rfl⟩

/-- The rank-0 shape has exactly one index. -/
private instance : Subsingleton Cert.Pre_finite_inputs.S_.Idx := ⟨fun a b => funext fun d => d.elim0⟩

theorem of_pre (x1 x2 : Cert.Loss.SX.Idx → EReal) (w : Cert.Loss.SW.Idx → EReal) (mk : Cert.Loss.SW.Idx → BitVec 32)
    (h : Cert.Pre_finite_inputs.fn (F := Ideal) x1 x2 w mk = (fun _ => 1#1)) :
    (∀ q, ∃ r : ℝ, x1 q = (r : EReal)) ∧ (∀ q, ∃ r : ℝ, x2 q = (r : EReal)) ∧ (∀ q, ∃ r : ℝ, w q = (r : EReal)) := by
  -- the one word of the result
  have h0 := congrFun h ValueIdx.ix0
  dsimp only [Cert.Pre_finite_inputs.fn, andi] at h0
  -- (all₁ ∧ all₂) ∧ all₃ = 1 : each conjunct is 1
  obtain ⟨h12, h3⟩ := IntOp.andi_eq_one.1 h0
  obtain ⟨h1, h2⟩ := IntOp.andi_eq_one.1 h12
  -- a conjunction over all entries that is 1 is 1 at every entry; there the comparison `|x| < +∞` holds
  refine ⟨fun q => ?_, fun q => ?_, fun q => ?_⟩
  · exact real_of_abs_lt_top (x1 q) (Host.reduce_andi_all _ _ _ _ _ h1 q)
  · exact real_of_abs_lt_top (x2 q) (Host.reduce_andi_all _ _ _ _ _ h2 q)
  · exact real_of_abs_lt_top (w q) (Host.reduce_andi_all _ _ _ _ _ h3 q)

end Cert.Finite

end
-- ==== Proof.KerDefs.lean ====
/-
  Names shared by the modules that read the idealized kernel's value.

  One grid point `t = 8 * r + k` works on rows `512 * r ..< 512 * (r + 1)` and columns `1024 * k ..< 1024 * (k + 1)`.
  For input blocks `x0 : [512, 256]`, `x1 : [1024, 256]`, weights `x2 : [512, 1024]` and mask `x3 : [512, 1024]` the body adds
  to its four running row sums the block's share:
    `tileA p = ∑ l, (m p l * w p l) * (dot p l * κ)`,  `tileS p = ∑ l, m p l * w p l`,
    `tileE p = ∑ l, exp (dot p l * κ)`,              `tileC p = ∑ l, m p l`,
  with `dot p l = ∑ d, x0 p d * x1 l d`.
-/
import proofs.«161606_j53386443489488_1_alg».proof.Proof.Gen.KernelIdeal.Frame
import proofs.«161606_j53386443489488_1_alg».proof.Proof.Spec

set_option maxRecDepth 16384

noncomputable section

namespace Cert.KernelIdeal.Tile

open Idealize.ShloMosaic Idealize.ShloMosaic.ValueIdx Cert.KernelIdeal Cert.KernelIdeal.Gen
open scoped BigOperators

section
variable (x0 : Vec Ideal S512x256 .bf16) (x1 : Vec Ideal S1024x256 .bf16) (x2 : Vec Ideal S512x1024 .f32) (x3 : Vec Ideal S512x1024 .i32)

/-- Row `p` of the left block against row `l` of the right block. -/
def tdot (p : Fin 512) (l : Fin 1024) : EReal := ∑ d : Fin 256, x0 (ix2 p d) * x1 (ix2 l d)
/-- The block's mask entry as a number. -/
def tmf (p : Fin 512) (l : Fin 1024) : EReal := (((x3 (ix2 p l)).toInt : ℝ) : EReal)
/-- Mask times weight inside the block. -/
def tmw (p : Fin 512) (l : Fin 1024) : EReal := tmf x3 p l * x2 (ix2 p l)
/-- The scaled similarity inside the block. -/
def tsim (p : Fin 512) (l : Fin 1024) : EReal := tdot x0 x1 p l * Cert.Loss.κ
def tileA (p : Fin 512) : EReal := ∑ l : Fin 1024, tmw x2 x3 p l * tsim x0 x1 p l
def tileS (p : Fin 512) : EReal := ∑ l : Fin 1024, tmw x2 x3 p l
def tileE (p : Fin 512) : EReal := ∑ l : Fin 1024, Ideal.exp (tsim x0 x1 p l)
def tileC (p : Fin 512) : EReal := ∑ l : Fin 1024, tmf x3 p l
end

/-- The global row a block row belongs to at point `t`. -/
def rowOf (t : Fin cfg0.N) (p : Fin 512) : Fin 8192 :=
  ⟨512 * (t.val / 8) + p.val, by have h := t.isLt; have hN : cfg0.N = 128 := N_0; omega⟩
/-- The global column a block column belongs to at point `t`. -/
def colOf (t : Fin cfg0.N) (l : Fin 1024) : Fin 8192 :=
  ⟨1024 * (t.val % 8) + l.val, by omega⟩

section
variable (m : (ℓ : Loc nD τ sig) → Buf (Elt Ideal) ℓ)

/-- The arrays as the region finds them, at their literal types. -/
abbrev arrN1 (c : Dev nD) : Cert.Loss.SX.Idx → EReal := V m c main_v10
abbrev arrN2 (c : Dev nD) : Cert.Loss.SX.Idx → EReal := V m c main_v11
abbrev arrW (c : Dev nD) : Cert.Loss.SW.Idx → EReal := V m c main_arg2
abbrev arrM (c : Dev nD) : Cert.Loss.SW.Idx → BitVec 32 := V m c main_arg3

/-- The input blocks of point `t`, at their literal types. -/
abbrev blk0 (c : Dev nD) (t : Fin cfg0.N) : Vec Ideal S512x256 .bf16 := iblk m c 0 t
abbrev blk1 (c : Dev nD) (t : Fin cfg0.N) : Vec Ideal S1024x256 .bf16 := iblk m c 1 t
abbrev blk2 (c : Dev nD) (t : Fin cfg0.N) : Vec Ideal S512x1024 .f32 := iblk m c 2 t
abbrev blk3 (c : Dev nD) (t : Fin cfg0.N) : Vec Ideal S512x1024 .i32 := iblk m c 3 t
end

end Cert.KernelIdeal.Tile

end
-- ==== Proof.KerBlocks.lean ====
/-
  Where the idealized kernel's input blocks sit in the arrays, and what the arrays the host prepares hold.

  At point `t = 8 * r + k`: the left block is rows `512 * r + p` of the first normalised matrix, the right block rows
  `1024 * k + l` of the second, and the weight and mask blocks the rectangle of those rows and columns.  The two
  normalised matrices are the host's row normalisation of the two text arguments (a change of float format is the
  identity on the extended reals); weights and mask are the arguments themselves.
-/
import proofs.«161606_j53386443489488_1_alg».proof.Proof.KerDefs
import Idealize.ShloMosaic.Lib.StableHlo.Run
import Idealize.ShloMosaic.PureOps.Ideal.Laws
import Idealize.ShloMosaic.Lib.Pipeline.Value
import Idealize.ShloMosaic.Lib.ValueLayout
import Idealize.ShloMosaic.Lib.IdealHost

set_option maxRecDepth 16384

noncomputable section

namespace Cert.KernelIdeal.Blocks

open Idealize.ShloMosaic Idealize.ShloMosaic.ValueIdx Idealize.SL.Sem Cert.KernelIdeal Cert.KernelIdeal.Gen Cert.KernelIdeal.Tile
open scoped BigOperators

variable (m : (ℓ : Loc nD τ sig) → Buf (Elt Ideal) ℓ)

/-! ## The block of a point inside its array -/

/-- The windows' index maps over the grid: point `t` has block row `t / 8` and block column `t % 8`; the left block
    follows the block row, the right block the block column, weights and mask both. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = t.val % 8
    ∧ win0_3.index t (0 : Fin 2) = t.val / 8 ∧ win0_3.index t (1 : Fin 2) = t.val % 8 :=
  (by decide +kernel : ∀ t : Fin grid0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = t.val % 8
    ∧ win0_3.index t (0 : Fin 2) = t.val / 8 ∧ win0_3.index t (1 : Fin 2) = t.val % 8)

theorem blk0_apply (c : Dev nD) (t : Fin cfg0.N) (p : Fin 512) (d : Fin 256) :
    blk0 m c t (ix2 p d) = arrN1 m c (ix2 (rowOf t p) d) := by
  obtain ⟨e0, e1, -⟩ := idx_facts t
  show V m c main_v10 (((cfg0.win 0).blk t).view.emb (ix2 p d)) = V m c main_v10 (ix2 (rowOf t p) d)
  refine congrArg (V m c main_v10) (funext fun a => Fin.ext ?_)
  match a with
  | ⟨0, _⟩ => show win0_0.index t (0 : Fin 2) * 512 + 1 * p.val = 512 * (t.val / 8) + p.val; omega
  | ⟨1, _⟩ => show win0_0.index t (1 : Fin 2) * 256 + 1 * d.val = d.val; omega

theorem blk1_apply (c : Dev nD) (t : Fin cfg0.N) (l : Fin 1024) (d : Fin 256) :
    blk1 m c t (ix2 l d) = arrN2 m c (ix2 (colOf t l) d) := by
  obtain ⟨-, -, e0, e1, -⟩ := idx_facts t
  show V m c main_v11 (((cfg0.win 1).blk t).view.emb (ix2 l d)) = V m c main_v11 (ix2 (colOf t l) d)
  refine congrArg (V m c main_v11) (funext fun a => Fin.ext ?_)
  match a with
  | ⟨0, _⟩ => show win0_1.index t (0 : Fin 2) * 1024 + 1 * l.val = 1024 * (t.val % 8) + l.val; omega
  | ⟨1, _⟩ => show win0_1.index t (1 : Fin 2) * 256 + 1 * d.val = d.val; omega

theorem blk2_apply (c : Dev nD) (t : Fin cfg0.N) (p : Fin 512) (l : Fin 1024) :
    blk2 m c t (ix2 p l) = arrW m c (ix2 (rowOf t p) (colOf t l)) := by
  obtain ⟨-, -, -, -, e0, e1, -⟩ := idx_facts t
  show V m c main_arg2 (((cfg0.win 2).blk t).view.emb (ix2 p l)) = V m c main_arg2 (ix2 (rowOf t p) (colOf t l))
  refine congrArg (V m c main_arg2) (funext fun a => Fin.ext ?_)
  match a with
  | ⟨0, _⟩ => show win0_2.index t (0 : Fin 2) * 512 + 1 * p.val = 512 * (t.val / 8) + p.val; omega
  | ⟨1, _⟩ => show win0_2.index t (1 : Fin 2) * 1024 + 1 * l.val = 1024 * (t.val % 8) + l.val; omega

theorem blk3_apply (c : Dev nD) (t : Fin cfg0.N) (p : Fin 512) (l : Fin 1024) :
    blk3 m c t (ix2 p l) = arrM m c (ix2 (rowOf t p) (colOf t l)) := by
  obtain ⟨-, -, -, -, -, -, e0, e1⟩ := idx_facts t
  show V m c main_arg3 (((cfg0.win 3).blk t).view.emb (ix2 p l)) = V m c main_arg3 (ix2 (rowOf t p) (colOf t l))
  refine congrArg (V m c main_arg3) (funext fun a => Fin.ext ?_)
  match a with
  | ⟨0, _⟩ => show win0_3.index t (0 : Fin 2) * 512 + 1 * p.val = 512 * (t.val / 8) + p.val; omega
  | ⟨1, _⟩ => show win0_3.index t (1 : Fin 2) * 1024 + 1 * l.val = 1024 * (t.val % 8) + l.val; omega

/-! ## What the host prepares -/

/-- The squares of a matrix summed along each row, as the host reduces them from the zero word. -/
def rowSq (x : FVec Ideal S8192x256 .f32) : FVec Ideal S8192 .f32 :=
  Host.reduceAdd (F := Ideal) (mulf x x) (constant (F := Ideal) S_ .f32 0x00000000#32) reducesTo_S8192x256_S8192_d1 h_S_

/-- The floor under a row's norm, broadcast to a column. -/
def epsCol : FVec Ideal S8192x1 .f32 :=
  broadcastInDim S8192x1 ![] bcast_S_S8192x1 (constant (F := Ideal) S_ .f32 0x322BCC77#32)

/-- Each row's norm, floored: a column. -/
def normCol (x : FVec Ideal S8192x256 .f32) : FVec Ideal S8192x1 .f32 :=
  maximumf (Host.sqrt (broadcastInDim S8192x1 ![0] bcast_S8192_S8192x1_0 (rowSq x))) epsCol

/-- The host's operations on one text argument, composed: every entry over its row's floored norm, then the change of
    float format. -/
def hostNorm (x : FVec Ideal S8192x256 .f32) : FVec Ideal S8192x256 .bf16 :=
  truncf .bf16 (Host.divf (F := Ideal) x (broadcastInDim S8192x256 ![0, 1] bcast_S8192x1_S8192x256_0_1 (normCol x))) bitsLt_bf16_f32

/-- Row `i`'s sum of squares. -/
theorem rowSq_apply (x : FVec Ideal S8192x256 .f32) (i : Fin 8192) :
    rowSq x (ix1 i) = ∑ k : Fin 256, x (ix2 i k) * x (ix2 i k) := by
  have hred : S8192x256.Reduces [1] S8192 := by decide
  unfold rowSq
  rw [hostReduceAdd_apply, Ideal.hostReduceAdd_single reducesTo_S8192x256_S8192_d1 hred, constant_apply,
    Ideal.ofBits_zero_f32, zero_add]
  show ∑ k : Fin 256, mulf x x (hred.lift (ix1 i) k) = _
  refine Finset.sum_congr rfl fun k _ => ?_
  have hl : hred.lift (ix1 i) k = ix2 i k := funext fun a => Fin.ext (match a with | ⟨0, _⟩ => rfl | ⟨1, _⟩ => rfl)
  rw [hl, mulf_apply]

/-- The floor read anywhere is `eps`. -/
theorem epsCol_apply (j : S8192x1.Idx) : epsCol j = Cert.Loss.eps := by
  unfold epsCol
  rw [broadcastInDim_scalar_apply, constant_apply]
  rfl

/-- Row `i`'s floored norm. -/
theorem normCol_apply (x : FVec Ideal S8192x256 .f32) (i : Fin 8192) :
    normCol x (ix2 i (0 : Fin 1)) = max (Ideal.sqrt (∑ k : Fin 256, x (ix2 i k) * x (ix2 i k))) Cert.Loss.eps := by
  unfold normCol
  rw [maximumf_apply, epsCol_apply]
  show max (Ideal.sqrt (broadcastInDim S8192x1 ![0] bcast_S8192_S8192x1_0 (rowSq x) (ix2 i (0 : Fin 1)))) _ = _
  rw [broadcastInDim_apply ![0] bcast_S8192_S8192x1_0 (rowSq x) (ix2 i (0 : Fin 1)) (ix1 i)
    (fun a => match a with | ⟨0, _⟩ => rfl), rowSq_apply]

/-- The composed host operations are the row normalisation. -/
theorem hostNorm_eq (x : FVec Ideal S8192x256 .f32) : hostNorm x = Cert.Loss.normRows x := by
  funext q
  obtain ⟨i, k, rfl⟩ : ∃ (i : Fin 8192) (k : Fin 256), q = ix2 i k := ⟨q 0, q 1, eq_ix2 q⟩
  unfold hostNorm Cert.Loss.normRows
  rw [truncf_apply, hostDivf_apply,
    broadcastInDim_apply ![0, 1] bcast_S8192x1_S8192x256_0_1 (normCol x) (ix2 i k) (ix2 i (0 : Fin 1))
      (fun a => match a with | ⟨0, _⟩ => rfl | ⟨1, _⟩ => rfl), normCol_apply]

theorem arrN1_eq (c : Dev nD) :
    arrN1 m c = Cert.Loss.normRows (m ((c.tc : Thread nD τ).loc main_arg0)) := by
  have e : (V m c main_v10 : Cert.Loss.SX.Idx → EReal) = hostNorm (m ((c.tc : Thread nD τ).loc main_arg0)) := by
    dsimp only [Gen.V, Gen.V0]
    simp only [Gen.hostOps0, Gen.hostOps0_1, Gen.hostOps0_2, Gen.hostOps0_3, List.flatten_cons, List.flatten_nil,
      List.append_nil, List.cons_append, List.nil_append]
    after_results
    rfl
  exact e.trans (hostNorm_eq _)

theorem arrN2_eq (c : Dev nD) :
    arrN2 m c = Cert.Loss.normRows (m ((c.tc : Thread nD τ).loc main_arg1)) := by
  have e : (V m c main_v11 : Cert.Loss.SX.Idx → EReal) = hostNorm (m ((c.tc : Thread nD τ).loc main_arg1)) := by
    dsimp only [Gen.V, Gen.V0]
    simp only [Gen.hostOps0, Gen.hostOps0_1, Gen.hostOps0_2, Gen.hostOps0_3, List.flatten_cons, List.flatten_nil,
      List.append_nil, List.cons_append, List.nil_append]
    after_results
    rfl
  exact e.trans (hostNorm_eq _)

theorem arrW_eq (c : Dev nD) : arrW m c = m ((c.tc : Thread nD τ).loc main_arg2) := V_main_arg2 m c

theorem arrM_eq (c : Dev nD) : arrM m c = m ((c.tc : Thread nD τ).loc main_arg3) := V_main_arg3 m c

end Cert.KernelIdeal.Blocks

end
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.KerPayload.lean ====
/-
  The kernel body's arithmetic, entry by entry on the extended reals.

  Each stored value is a column `[512, 1]`; its entry `p` is the loaded running sum's entry plus a sum over the block's
  1024 columns (a lane reduction), the similarity being the matrix product's entry times the scale.
-/
import proofs.«161606_j53386443489488_1_alg».proof.Proof.Gen.KernelIdeal.Skeleton
import proofs.«161606_j53386443489488_1_alg».proof.Proof.KerDefs
import proofs.«161606_j53386443489488_1_alg».proof.Proof.LibRowwise
import Idealize.ShloMosaic.PureOps.Ideal.Laws
import Idealize.ShloMosaic.PureOps.IdealRules
import Idealize.ShloMosaic.Lib.Pipeline.Value
import Idealize.ShloMosaic.Lib.ValueLayout
import Idealize.ShloMosaic.Lib.ValueIdx

set_option maxRecDepth 16384

noncomputable section

namespace Cert.KernelIdeal.Pay

open Idealize.ShloMosaic Idealize.ShloMosaic.ValueIdx Cert.KernelIdeal Cert.KernelIdeal.Gen Cert.KernelIdeal.Tile
open scoped BigOperators

/-! ## The matrix product: both operands contract their axis 1

  The product of `a : [512, 256]` and `b : [1024, 256]` along the second axis of each, into the zero accumulator, is at
  `(p, l)` the sum `∑ d, a (p, d) * b (l, d)`. The operand indices at result index `j` and contraction position `q` are
  `(j 0, q)` on the left and `(j 1, q)` on the right; each coordinate is one lemma. -/

theorem lhs_dot_S512x256_S1024x256_S512x1024_1_1_0_0_n_n_0 (j : S512x1024.Idx) (q : dot_S512x256_S1024x256_S512x1024_1_1_0_0_n_n.contr.Idx) :
    (dot_S512x256_S1024x256_S512x1024_1_1_0_0_n_n.lhsIdx j q 0).val = (j 0).val := by
  unfold DotDims.lhsIdx
  rw [dif_neg (show ¬(0 : Fin S512x256.rank) ∈ dot_S512x256_S1024x256_S512x1024_1_1_0_0_n_n.lhsBatch by decide),
    dif_pos (show (0 : Fin S512x256.rank) ∈ dot_S512x256_S1024x256_S512x1024_1_1_0_0_n_n.lhsNonContracting by decide)]
  rfl

theorem lhs_dot_S512x256_S1024x256_S512x1024_1_1_0_0_n_n_1 (j : S512x1024.Idx) (q : dot_S512x256_S1024x256_S512x1024_1_1_0_0_n_n.contr.Idx) :
    (dot_S512x256_S1024x256_S512x1024_1_1_0_0_n_n.lhsIdx j q 1).val = (q ⟨0, Nat.one_pos⟩).val :=
  DotDims.lhsIdx_val_of_single (d := dot_S512x256_S1024x256_S512x1024_1_1_0_0_n_n) (cl := 1) rfl j q

theorem rhs_dot_S512x256_S1024x256_S512x1024_1_1_0_0_n_n_0 (j : S512x1024.Idx) (q : dot_S512x256_S1024x256_S512x1024_1_1_0_0_n_n.contr.Idx) :
    (dot_S512x256_S1024x256_S512x1024_1_1_0_0_n_n.rhsIdx j q 0).val = (j 1).val := by
  unfold DotDims.rhsIdx
  rw [dif_neg (show ¬(0 : Fin S1024x256.rank) ∈ dot_S512x256_S1024x256_S512x1024_1_1_0_0_n_n.rhsBatch by decide),
    dif_pos (show (0 : Fin S1024x256.rank) ∈ dot_S512x256_S1024x256_S512x1024_1_1_0_0_n_n.rhsNonContracting by decide)]
  rfl

theorem rhs_dot_S512x256_S1024x256_S512x1024_1_1_0_0_n_n_1 (j : S512x1024.Idx) (q : dot_S512x256_S1024x256_S512x1024_1_1_0_0_n_n.contr.Idx) :
    (dot_S512x256_S1024x256_S512x1024_1_1_0_0_n_n.rhsIdx j q 1).val = (q ⟨0, Nat.one_pos⟩).val :=
  DotDims.rhsIdx_val_of_single (d := dot_S512x256_S1024x256_S512x1024_1_1_0_0_n_n) (cr := 1) rfl j q

/-- The product into the zero accumulator at `(p, l)`: row `p` of the left operand against row `l` of the right one. -/
theorem matmul_zero_apply (a : FVec Ideal S512x256 .bf16) (b : FVec Ideal S1024x256 .bf16) (p : Fin 512) (l : Fin 1024) :
    FloatOps.matmul dot_S512x256_S1024x256_S512x1024_1_1_0_0_n_n none a b (constant (F := Ideal) S512x1024 .f32 0x00000000#32) (ix2 p l)
      = ∑ d : Fin 256, a (ix2 p d) * b (ix2 l d) := by
  refine (Ideal.matmul_constant_zero_apply dot_S512x256_S1024x256_S512x1024_1_1_0_0_n_n none a b (ix2 p l)).trans ?_
  refine (Equiv.sum_comp (contrEquiv1 dot_S512x256_S1024x256_S512x1024_1_1_0_0_n_n 256 rfl rfl).symm _).symm.trans ?_
  refine Finset.sum_congr rfl fun k _ => ?_
  have hk := contrEquiv1_symm_val dot_S512x256_S1024x256_S512x1024_1_1_0_0_n_n 256 rfl rfl k
  have el : dot_S512x256_S1024x256_S512x1024_1_1_0_0_n_n.lhsIdx (ix2 p l) ((contrEquiv1 dot_S512x256_S1024x256_S512x1024_1_1_0_0_n_n 256 rfl rfl).symm k) = ix2 p k :=
    funext fun a => Fin.ext (by
      match a with
      | ⟨0, _⟩ => exact lhs_dot_S512x256_S1024x256_S512x1024_1_1_0_0_n_n_0 _ _
      | ⟨1, _⟩ => exact (lhs_dot_S512x256_S1024x256_S512x1024_1_1_0_0_n_n_1 _ _).trans hk)
  have er : dot_S512x256_S1024x256_S512x1024_1_1_0_0_n_n.rhsIdx (ix2 p l) ((contrEquiv1 dot_S512x256_S1024x256_S512x1024_1_1_0_0_n_n 256 rfl rfl).symm k) = ix2 l k :=
    funext fun a => Fin.ext (by
      match a with
      | ⟨0, _⟩ => exact rhs_dot_S512x256_S1024x256_S512x1024_1_1_0_0_n_n_0 _ _
      | ⟨1, _⟩ => exact (rhs_dot_S512x256_S1024x256_S512x1024_1_1_0_0_n_n_1 _ _).trans hk)
  exact congrArg₂ (· * ·) (congrArg a el) (congrArg b er)

/-- The same with each operand first cast to its own shape, which changes nothing: the block's similarity before
    scaling. -/
theorem matmul_cast_apply (x0 : Vec Ideal S512x256 .bf16) (x1 : Vec Ideal S1024x256 .bf16) (p : Fin 512) (l : Fin 1024) :
    FloatOps.matmul (φ₁ := .bf16) (φ₂ := .bf16) dot_S512x256_S1024x256_S512x1024_1_1_0_0_n_n none (shapeCast S512x256 x0 shapeCasts_S512x256_S512x256)
        (shapeCast S1024x256 x1 shapeCasts_S1024x256_S1024x256) (constant (F := Ideal) S512x1024 .f32 0x00000000#32) (ix2 p l)
      = tdot x0 x1 p l := by
  have e0 : shapeCast S512x256 x0 shapeCasts_S512x256_S512x256 = x0 := shapeCast_self x0 _
  have e1 : shapeCast S1024x256 x1 shapeCasts_S1024x256_S1024x256 = x1 := shapeCast_self x1 _
  rw [e0, e1]
  exact matmul_zero_apply x0 x1 p l

/-! ## The scale -/

/-- The named scale is the exact rational the table gives it. -/
theorem scale_eq : Named.named (F := Ideal) κ "inv_temperature" (φ := .f32) 0x41A00000#32 = Cert.Loss.κ :=
  IdealRules.named_const.ideal_named_scalar _ _ _ _ rfl

/-! ## The block-sized values at an entry -/

/-- The scaled similarity at `(p, l)`. -/
theorem pay8_apply (x0 : Vec Ideal S512x256 .bf16) (x1 : Vec Ideal S1024x256 .bf16) (p : Fin 512) (l : Fin 1024) :
    k0_pay8 (F := Ideal) x0 x1 (ix2 p l) = tsim x0 x1 p l := by
  have h : k0_pay8 (F := Ideal) x0 x1 (ix2 p l)
      = FloatOps.matmul (φ₁ := .bf16) (φ₂ := .bf16) dot_S512x256_S1024x256_S512x1024_1_1_0_0_n_n none (shapeCast S512x256 x0 shapeCasts_S512x256_S512x256)
          (shapeCast S1024x256 x1 shapeCasts_S1024x256_S1024x256) (constant (F := Ideal) S512x1024 .f32 0x00000000#32) (ix2 p l)
        * Named.named (F := Ideal) κ "inv_temperature" (φ := .f32) 0x41A00000#32 := rfl
  rw [h, matmul_cast_apply, scale_eq]
  rfl

/-- The mask as a number at `(p, l)`. -/
theorem pay9_apply (x3 : Vec Ideal S512x1024 .i32) (p : Fin 512) (l : Fin 1024) :
    k0_pay9 (F := Ideal) x3 (ix2 p l) = tmf x3 p l := rfl

/-- Mask times weight at `(p, l)`. -/
theorem pay10_apply (x2 : Vec Ideal S512x1024 .f32) (x3 : Vec Ideal S512x1024 .i32) (p : Fin 512) (l : Fin 1024) :
    k0_pay10 (F := Ideal) x3 x2 (ix2 p l) = tmw x2 x3 p l := rfl

/-- The exponential of the scaled similarity at `(p, l)`. -/
theorem pay13_apply (x0 : Vec Ideal S512x256 .bf16) (x1 : Vec Ideal S1024x256 .bf16) (p : Fin 512) (l : Fin 1024) :
    k0_pay13 (F := Ideal) x0 x1 (ix2 p l) = Ideal.exp (tsim x0 x1 p l) := by
  have h : k0_pay13 (F := Ideal) x0 x1 (ix2 p l) = Ideal.exp (k0_pay8 (F := Ideal) x0 x1 (ix2 p l)) := rfl
  rw [h, pay8_apply]

/-! ## A running column plus a block's lane sums -/

/-- The column the body stores: the running column `v` plus, row by row, the sum of `w` over the lanes. -/
def rowAcc (v : FVec Ideal S512x1 .f32) (w : FVec Ideal S512x1024 .f32) : FVec Ideal S512x1 .f32 :=
  shapeCast S512x1
    (addf v (shapeCast S512x1
      (multiReduction (F := Ideal) .add [1] S512 w 0x00000000#32 reduces_S512x1024_S512 (.inl rfl) rfl) shapeCasts_S512_S512x1))
    shapeCasts_S512x1_S512x1

/-- Its entry `p`: `v`'s entry plus the sum of row `p` of `w`. -/
theorem rowAcc_apply (v : FVec Ideal S512x1 .f32) (w : FVec Ideal S512x1024 .f32) (p : Fin 512) :
    rowAcc v w (ix2 p (0 : Fin 1)) = v (ix2 p (0 : Fin 1)) + ∑ l : Fin 1024, w (ix2 p l) := by
  unfold rowAcc
  refine (congrFun (shapeCast_self _ shapeCasts_S512x1_S512x1) (ix2 p (0 : Fin 1))).trans ?_
  refine congrArg (v (ix2 p (0 : Fin 1)) + ·) ?_
  refine (Cert.Lib.Rowwise.column_apply _ shapeCasts_S512_S512x1 p (0 : Fin 1)).trans ?_
  exact Cert.Lib.Rowwise.laneSum_apply w 0x00000000#32 reduces_S512x1024_S512 (.inl rfl) rfl p

theorem pay11_apply (x0 : Vec Ideal S512x256 .bf16) (x1 : Vec Ideal S1024x256 .bf16) (x2 : Vec Ideal S512x1024 .f32) (x3 : Vec Ideal S512x1024 .i32) (v : Vec Ideal S512x1 .f32) (p : Fin 512) :
    k0_pay11 (F := Ideal) x0 x1 x3 x2 v (ix2 p (0 : Fin 1)) = v (ix2 p (0 : Fin 1)) + tileA x0 x1 x2 x3 p := by
  have h : k0_pay11 (F := Ideal) x0 x1 x3 x2 v
      = rowAcc v (mulf (k0_pay10 (F := Ideal) x3 x2) (k0_pay8 (F := Ideal) x0 x1)) := rfl
  rw [h, rowAcc_apply]
  refine congrArg (v (ix2 p (0 : Fin 1)) + ·) (Finset.sum_congr rfl fun l _ => ?_)
  exact congrArg₂ (· * ·) (pay10_apply x2 x3 p l) (pay8_apply x0 x1 p l)

theorem pay12_apply (x2 : Vec Ideal S512x1024 .f32) (x3 : Vec Ideal S512x1024 .i32) (v : Vec Ideal S512x1 .f32) (p : Fin 512) :
    k0_pay12 (F := Ideal) x3 x2 v (ix2 p (0 : Fin 1)) = v (ix2 p (0 : Fin 1)) + tileS x2 x3 p := by
  have h : k0_pay12 (F := Ideal) x3 x2 v = rowAcc v (k0_pay10 (F := Ideal) x3 x2) := rfl
  rw [h, rowAcc_apply]
  exact congrArg (v (ix2 p (0 : Fin 1)) + ·) (Finset.sum_congr rfl fun l _ => pay10_apply x2 x3 p l)

theorem pay1_apply (x0 : Vec Ideal S512x256 .bf16) (x1 : Vec Ideal S1024x256 .bf16) (v : Vec Ideal S512x1 .f32) (p : Fin 512) :
    k0_pay1 (F := Ideal) v (k0_pay13 (F := Ideal) x0 x1) (ix2 p (0 : Fin 1)) = v (ix2 p (0 : Fin 1)) + tileE x0 x1 p := by
  have h : k0_pay1 (F := Ideal) v (k0_pay13 (F := Ideal) x0 x1) = rowAcc v (k0_pay13 (F := Ideal) x0 x1) := rfl
  rw [h, rowAcc_apply]
  exact congrArg (v (ix2 p (0 : Fin 1)) + ·) (Finset.sum_congr rfl fun l _ => pay13_apply x0 x1 p l)

theorem pay2_apply (x3 : Vec Ideal S512x1024 .i32) (v : Vec Ideal S512x1 .f32) (p : Fin 512) :
    k0_pay2 (F := Ideal) (k0_pay9 (F := Ideal) x3) v (ix2 p (0 : Fin 1)) = v (ix2 p (0 : Fin 1)) + tileC x3 p := by
  have h : k0_pay2 (F := Ideal) (k0_pay9 (F := Ideal) x3) v = rowAcc v (k0_pay9 (F := Ideal) x3) := rfl
  rw [h, rowAcc_apply]
  exact congrArg (v (ix2 p (0 : Fin 1)) + ·) (Finset.sum_congr rfl fun l _ => pay9_apply x3 p l)

/-- The zero column the first block of a row stores: the zero word's value everywhere. -/
theorem zeroCol_apply (i : S512x1.Idx) :
    shapeCast S512x1 (broadcast S512x1 (Scalar.ofBits (F := Ideal) .f32 0x00000000#32)) shapeCasts_S512x1_S512x1 i = 0 :=
  (congrFun (shapeCast_self _ shapeCasts_S512x1_S512x1) i).trans Ideal.ofBits_zero_f32

theorem pay4_apply (p : Fin 512) : (k0_pay4 (F := Ideal)) (ix2 p (0 : Fin 1)) = 0 := by
  exact zeroCol_apply _
theorem pay5_apply (p : Fin 512) : (k0_pay5 (F := Ideal)) (ix2 p (0 : Fin 1)) = 0 := by
  exact zeroCol_apply _
theorem pay6_apply (p : Fin 512) : (k0_pay6 (F := Ideal)) (ix2 p (0 : Fin 1)) = 0 := by
  exact zeroCol_apply _
theorem pay7_apply (p : Fin 512) : (k0_pay7 (F := Ideal)) (ix2 p (0 : Fin 1)) = 0 := by
  exact zeroCol_apply _

theorem pay3_apply (e cn a s : Vec Ideal S512x1 .f32) (p : Fin 512) :
    k0_pay3 (F := Ideal) e cn a s (ix2 p (0 : Fin 1))
      = Ideal.div (0 - (a (ix2 p (0 : Fin 1)) - Ideal.log (e (ix2 p (0 : Fin 1))) * s (ix2 p (0 : Fin 1))))
          (max (cn (ix2 p (0 : Fin 1))) Cert.Loss.one) := by
  have h : k0_pay3 (F := Ideal) e cn a s (ix2 p (0 : Fin 1))
      = Ideal.div (Ideal.ofBits .f32 0x00000000#32 - (a (ix2 p (0 : Fin 1)) - Ideal.log (e (ix2 p (0 : Fin 1))) * s (ix2 p (0 : Fin 1))))
          (max (cn (ix2 p (0 : Fin 1))) Cert.Loss.one) := rfl
  rw [h, Ideal.ofBits_zero_f32]

end Cert.KernelIdeal.Pay

end
-- ==== Proof.KerBody.lean ====
/-
  What one run of the kernel body leaves in its four running row sums and, at a row tile's last column tile, in the
  output block — read entry by entry on the extended reals.

  At a row tile's first column tile (case A) the sums are reset and then receive the block's share; at the other
  points (cases B and C) the share is added to what the point before left; at the last column tile (case C) the output
  block is `(0 - (A - log E * S)) / max C 1` of the sums just updated.
-/
import proofs.«161606_j53386443489488_1_alg».proof.Proof.KerDefs
import proofs.«161606_j53386443489488_1_alg».proof.Proof.KerPayload

set_option maxRecDepth 16384

noncomputable section

namespace Cert.KernelIdeal.Body

open Idealize.ShloMosaic Idealize.ShloMosaic.ValueIdx Cert.KernelIdeal Cert.KernelIdeal.Gen Cert.KernelIdeal.Tile
open scoped BigOperators

/-! ## The stored columns as whole vectors, at any number type

Every load and store of the body goes through the whole buffer (the unit rectangle at zero offsets), so what a buffer
is left holding is the payload of the last store into it, its loaded operands being the buffers' contents: the block
inputs, and for a running sum either what the point before left or, after the reset, the reset's zeros. -/

section Pieces

variable {F : FTy → Type} [FloatOps F] [Named F]

/-- The zero offsets, as the body spells them. -/
theorem hz00 : (![0, 0] : Fin 2 → Nat) = fun _ => 0 := funext fun a => by fin_cases a <;> rfl

variable (c : Dev nD) (i : grid0.Coords) (arg2 : Memref sig .tc .vmem S512x256 .bf16) (harg2 : arg2.IsWhole) (arg3 : Memref sig .tc .vmem S1024x256 .bf16) (harg3 : arg3.IsWhole) (arg4 : Memref sig .tc .vmem S512x1024 .f32) (harg4 : arg4.IsWhole) (arg5 : Memref sig .tc .vmem S512x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole)

section CaseA
variable (hc0 : cond0_0 i) (hc1 : ¬cond0_1 i)
  (x0 : Vec F S512x256 .bf16) (x1 : Vec F S1024x256 .bf16) (x2 : Vec F S512x1024 .f32) (x3 : Vec F S512x1024 .i32)

theorem piece_A_0 : sout0_A_0 c i arg2 harg2 arg3 harg3 arg4 harg4 arg5 harg5 arg6 harg6 arg7 harg7 arg8 harg8 arg9 harg9 arg10 harg10 hc0 hc1 x0 x1 x2 x3 = k0_pay11 x0 x1 x3 x2 (k0_pay4 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S512x1) hz00, View.readCov_unit_zero (S := S512x1) _ hz00]
  simp only [View.readAt_eq_ld, harg2.read_unread, harg3.read_unread, harg4.read_unread, harg5.read_unread, harg7.read_unread, harg8.read_unread, harg9.read_unread, harg10.read_unread, View.ld_unit_zero (S := S512x256) hz00, View.ld_unit_zero (S := S1024x256) hz00, View.ld_unit_zero (S := S512x1024) hz00, View.ld_unit_zero (S := S512x1) hz00, View.readCov_unit_zero (S := S512x1) _ hz00]

theorem piece_A_1 : sout0_A_1 c i arg2 harg2 arg3 harg3 arg4 harg4 arg5 harg5 arg6 harg6 arg7 harg7 arg8 harg8 arg9 harg9 arg10 harg10 hc0 hc1 x0 x1 x2 x3 = k0_pay12 x3 x2 (k0_pay5 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S512x1) hz00, View.readCov_unit_zero (S := S512x1) _ hz00]
  simp only [View.readAt_eq_ld, harg2.read_unread, harg3.read_unread, harg4.read_unread, harg5.read_unread, harg7.read_unread, harg8.read_unread, harg9.read_unread, harg10.read_unread, View.ld_unit_zero (S := S512x256) hz00, View.ld_unit_zero (S := S1024x256) hz00, View.ld_unit_zero (S := S512x1024) hz00, View.ld_unit_zero (S := S512x1) hz00, View.readCov_unit_zero (S := S512x1) _ hz00]

theorem piece_A_2 : sout0_A_2 c i arg2 harg2 arg3 harg3 arg4 harg4 arg5 harg5 arg6 harg6 arg7 harg7 arg8 harg8 arg9 harg9 arg10 harg10 hc0 hc1 x0 x1 x2 x3 = k0_pay1 (k0_pay6 (F := F)) (k0_pay13 x0 x1) := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S512x1) hz00, View.readCov_unit_zero (S := S512x1) _ hz00]
  simp only [View.readAt_eq_ld, harg2.read_unread, harg3.read_unread, harg4.read_unread, harg5.read_unread, harg7.read_unread, harg8.read_unread, harg9.read_unread, harg10.read_unread, View.ld_unit_zero (S := S512x256) hz00, View.ld_unit_zero (S := S1024x256) hz00, View.ld_unit_zero (S := S512x1024) hz00, View.ld_unit_zero (S := S512x1) hz00, View.readCov_unit_zero (S := S512x1) _ hz00]

theorem piece_A_3 : sout0_A_3 c i arg2 harg2 arg3 harg3 arg4 harg4 arg5 harg5 arg6 harg6 arg7 harg7 arg8 harg8 arg9 harg9 arg10 harg10 hc0 hc1 x0 x1 x2 x3 = k0_pay2 (k0_pay9 x3) (k0_pay7 (F := F)) := by
  unfold sout0_A_3
  rw [View.read_writes_eq_canon _ _ _ (scover0_A_3 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S512x1) hz00, View.readCov_unit_zero (S := S512x1) _ hz00]
  simp only [View.readAt_eq_ld, harg2.read_unread, harg3.read_unread, harg4.read_unread, harg5.read_unread, harg7.read_unread, harg8.read_unread, harg9.read_unread, harg10.read_unread, View.ld_unit_zero (S := S512x256) hz00, View.ld_unit_zero (S := S1024x256) hz00, View.ld_unit_zero (S := S512x1024) hz00, View.ld_unit_zero (S := S512x1) hz00, View.readCov_unit_zero (S := S512x1) _ hz00]

end CaseA

section CaseB
variable (hc0 : ¬cond0_0 i) (hc1 : ¬cond0_1 i)
  (x0 : Vec F S512x256 .bf16) (x1 : Vec F S1024x256 .bf16) (x2 : Vec F S512x1024 .f32) (x3 : Vec F S512x1024 .i32)
  (xs0 xs1 xs2 xs3 : Vec F S512x1 .f32)

theorem piece_B_0 : sout0_B_0 c i arg2 harg2 arg3 harg3 arg4 harg4 arg5 harg5 arg6 harg6 arg7 harg7 arg8 harg8 arg9 harg9 arg10 harg10 hc0 hc1 x0 x1 x2 x3 xs0 xs1 xs2 xs3 = k0_pay11 x0 x1 x3 x2 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_unit_zero hz00]
  simp only [View.readAt_eq_ld, harg2.read_unread, harg3.read_unread, harg4.read_unread, harg5.read_unread, harg7.read_unread, harg8.read_unread, harg9.read_unread, harg10.read_unread, View.ld_unit_zero (S := S512x256) hz00, View.ld_unit_zero (S := S1024x256) hz00, View.ld_unit_zero (S := S512x1024) hz00, View.ld_unit_zero (S := S512x1) hz00, View.readCov_unit_zero (S := S512x1) _ hz00]

theorem piece_B_1 : sout0_B_1 c i arg2 harg2 arg3 harg3 arg4 harg4 arg5 harg5 arg6 harg6 arg7 harg7 arg8 harg8 arg9 harg9 arg10 harg10 hc0 hc1 x0 x1 x2 x3 xs0 xs1 xs2 xs3 = k0_pay12 x3 x2 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_unit_zero hz00]
  simp only [View.readAt_eq_ld, harg2.read_unread, harg3.read_unread, harg4.read_unread, harg5.read_unread, harg7.read_unread, harg8.read_unread, harg9.read_unread, harg10.read_unread, View.ld_unit_zero (S := S512x256) hz00, View.ld_unit_zero (S := S1024x256) hz00, View.ld_unit_zero (S := S512x1024) hz00, View.ld_unit_zero (S := S512x1) hz00, View.readCov_unit_zero (S := S512x1) _ hz00]

theorem piece_B_2 : sout0_B_2 c i arg2 harg2 arg3 harg3 arg4 harg4 arg5 harg5 arg6 harg6 arg7 harg7 arg8 harg8 arg9 harg9 arg10 harg10 hc0 hc1 x0 x1 x2 x3 xs0 xs1 xs2 xs3 = k0_pay1 xs2 (k0_pay13 x0 x1) := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_unit_zero hz00]
  simp only [View.readAt_eq_ld, harg2.read_unread, harg3.read_unread, harg4.read_unread, harg5.read_unread, harg7.read_unread, harg8.read_unread, harg9.read_unread, harg10.read_unread, View.ld_unit_zero (S := S512x256) hz00, View.ld_unit_zero (S := S1024x256) hz00, View.ld_unit_zero (S := S512x1024) hz00, View.ld_unit_zero (S := S512x1) hz00, View.readCov_unit_zero (S := S512x1) _ hz00]

theorem piece_B_3 : sout0_B_3 c i arg2 harg2 arg3 harg3 arg4 harg4 arg5 harg5 arg6 harg6 arg7 harg7 arg8 harg8 arg9 harg9 arg10 harg10 hc0 hc1 x0 x1 x2 x3 xs0 xs1 xs2 xs3 = k0_pay2 (k0_pay9 x3) xs3 := by
  unfold sout0_B_3
  rw [View.read_writes_eq_canon _ _ _ (scover0_B_3 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_unit_zero hz00]
  simp only [View.readAt_eq_ld, harg2.read_unread, harg3.read_unread, harg4.read_unread, harg5.read_unread, harg7.read_unread, harg8.read_unread, harg9.read_unread, harg10.read_unread, View.ld_unit_zero (S := S512x256) hz00, View.ld_unit_zero (S := S1024x256) hz00, View.ld_unit_zero (S := S512x1024) hz00, View.ld_unit_zero (S := S512x1) hz00, View.readCov_unit_zero (S := S512x1) _ hz00]

end CaseB

section CaseC
variable (hc0 : ¬cond0_0 i) (hc1 : cond0_1 i)
  (x0 : Vec F S512x256 .bf16) (x1 : Vec F S1024x256 .bf16) (x2 : Vec F S512x1024 .f32) (x3 : Vec F S512x1024 .i32)
  (xs0 xs1 xs2 xs3 : Vec F S512x1 .f32)

theorem piece_C_0 : sout0_C_0 c i arg2 harg2 arg3 harg3 arg4 harg4 arg5 harg5 arg6 harg6 arg7 harg7 arg8 harg8 arg9 harg9 arg10 harg10 hc0 hc1 x0 x1 x2 x3 xs0 xs1 xs2 xs3 = k0_pay11 x0 x1 x3 x2 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero hz00]
  simp only [View.readAt_eq_ld, harg2.read_unread, harg3.read_unread, harg4.read_unread, harg5.read_unread, harg7.read_unread, harg8.read_unread, harg9.read_unread, harg10.read_unread, View.ld_unit_zero (S := S512x256) hz00, View.ld_unit_zero (S := S1024x256) hz00, View.ld_unit_zero (S := S512x1024) hz00, View.ld_unit_zero (S := S512x1) hz00, View.readCov_unit_zero (S := S512x1) _ hz00]

theorem piece_C_1 : sout0_C_1 c i arg2 harg2 arg3 harg3 arg4 harg4 arg5 harg5 arg6 harg6 arg7 harg7 arg8 harg8 arg9 harg9 arg10 harg10 hc0 hc1 x0 x1 x2 x3 xs0 xs1 xs2 xs3 = k0_pay12 x3 x2 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero hz00]
  simp only [View.readAt_eq_ld, harg2.read_unread, harg3.read_unread, harg4.read_unread, harg5.read_unread, harg7.read_unread, harg8.read_unread, harg9.read_unread, harg10.read_unread, View.ld_unit_zero (S := S512x256) hz00, View.ld_unit_zero (S := S1024x256) hz00, View.ld_unit_zero (S := S512x1024) hz00, View.ld_unit_zero (S := S512x1) hz00, View.readCov_unit_zero (S := S512x1) _ hz00]

theorem piece_C_2 : sout0_C_2 c i arg2 harg2 arg3 harg3 arg4 harg4 arg5 harg5 arg6 harg6 arg7 harg7 arg8 harg8 arg9 harg9 arg10 harg10 hc0 hc1 x0 x1 x2 x3 xs0 xs1 xs2 xs3 = k0_pay1 xs2 (k0_pay13 x0 x1) := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero hz00]
  simp only [View.readAt_eq_ld, harg2.read_unread, harg3.read_unread, harg4.read_unread, harg5.read_unread, harg7.read_unread, harg8.read_unread, harg9.read_unread, harg10.read_unread, View.ld_unit_zero (S := S512x256) hz00, View.ld_unit_zero (S := S1024x256) hz00, View.ld_unit_zero (S := S512x1024) hz00, View.ld_unit_zero (S := S512x1) hz00, View.readCov_unit_zero (S := S512x1) _ hz00]

theorem piece_C_3 : sout0_C_3 c i arg2 harg2 arg3 harg3 arg4 harg4 arg5 harg5 arg6 harg6 arg7 harg7 arg8 harg8 arg9 harg9 arg10 harg10 hc0 hc1 x0 x1 x2 x3 xs0 xs1 xs2 xs3 = k0_pay2 (k0_pay9 x3) xs3 := by
  unfold sout0_C_3
  rw [View.read_writes_eq_canon _ _ _ (scover0_C_3 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero hz00]
  simp only [View.readAt_eq_ld, harg2.read_unread, harg3.read_unread, harg4.read_unread, harg5.read_unread, harg7.read_unread, harg8.read_unread, harg9.read_unread, harg10.read_unread, View.ld_unit_zero (S := S512x256) hz00, View.ld_unit_zero (S := S1024x256) hz00, View.ld_unit_zero (S := S512x1024) hz00, View.ld_unit_zero (S := S512x1) hz00, View.readCov_unit_zero (S := S512x1) _ hz00]

/-- The output block at a row tile's last column tile: the closing formula of the four sums just stored, each read back. -/
theorem piece_C_out : out0_C_4 c i arg2 harg2 arg3 harg3 arg4 harg4 arg5 harg5 arg6 harg6 arg7 harg7 arg8 harg8 arg9 harg9 arg10 harg10 hc0 hc1 x0 x1 x2 x3 xs0 xs1 xs2 xs3
    = k0_pay3 (k0_pay1 xs2 (k0_pay13 x0 x1)) (k0_pay2 (k0_pay9 x3) xs3) (k0_pay11 x0 x1 x3 x2 xs0) (k0_pay12 x3 x2 xs1) := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero hz00]
  simp only [View.readAt_eq_ld, harg2.read_unread, harg3.read_unread, harg4.read_unread, harg5.read_unread, harg7.read_unread, harg8.read_unread, harg9.read_unread, harg10.read_unread, View.ld_unit_zero (S := S512x256) hz00, View.ld_unit_zero (S := S1024x256) hz00, View.ld_unit_zero (S := S512x1024) hz00, View.ld_unit_zero (S := S512x1) hz00, View.readCov_unit_zero (S := S512x1) _ hz00]

end CaseC

end Pieces

/-! ## Entry by entry on the extended reals -/

theorem scrA_0 (c : Dev nD) (i : grid0.Coords) (arg2 : Memref sig .tc .vmem S512x256 .bf16) (harg2 : arg2.IsWhole) (arg3 : Memref sig .tc .vmem S1024x256 .bf16) (harg3 : arg3.IsWhole) (arg4 : Memref sig .tc .vmem S512x1024 .f32) (harg4 : arg4.IsWhole) (arg5 : Memref sig .tc .vmem S512x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec Ideal S512x256 .bf16) (x1 : Vec Ideal S1024x256 .bf16) (x2 : Vec Ideal S512x1024 .f32) (x3 : Vec Ideal S512x1024 .i32) (p : Fin 512) :
    sout0_A_0 (F := Ideal) c i arg2 harg2 arg3 harg3 arg4 harg4 arg5 harg5 arg6 harg6 arg7 harg7 arg8 harg8 arg9 harg9 arg10 harg10 hc0 hc1 x0 x1 x2 x3 (ix2 p (0 : Fin 1)) = tileA x0 x1 x2 x3 p := by
  refine (congrFun (piece_A_0 (F := Ideal) c i arg2 harg2 arg3 harg3 arg4 harg4 arg5 harg5 arg6 harg6 arg7 harg7 arg8 harg8 arg9 harg9 arg10 harg10 hc0 hc1 x0 x1 x2 x3) (ix2 p (0 : Fin 1))).trans ?_
  refine (Pay.pay11_apply x0 x1 x2 x3 (k0_pay4 (F := Ideal)) p).trans ?_
  rw [Pay.pay4_apply p, zero_add]

theorem scrA_1 (c : Dev nD) (i : grid0.Coords) (arg2 : Memref sig .tc .vmem S512x256 .bf16) (harg2 : arg2.IsWhole) (arg3 : Memref sig .tc .vmem S1024x256 .bf16) (harg3 : arg3.IsWhole) (arg4 : Memref sig .tc .vmem S512x1024 .f32) (harg4 : arg4.IsWhole) (arg5 : Memref sig .tc .vmem S512x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec Ideal S512x256 .bf16) (x1 : Vec Ideal S1024x256 .bf16) (x2 : Vec Ideal S512x1024 .f32) (x3 : Vec Ideal S512x1024 .i32) (p : Fin 512) :
    sout0_A_1 (F := Ideal) c i arg2 harg2 arg3 harg3 arg4 harg4 arg5 harg5 arg6 harg6 arg7 harg7 arg8 harg8 arg9 harg9 arg10 harg10 hc0 hc1 x0 x1 x2 x3 (ix2 p (0 : Fin 1)) = tileS x2 x3 p := by
  refine (congrFun (piece_A_1 (F := Ideal) c i arg2 harg2 arg3 harg3 arg4 harg4 arg5 harg5 arg6 harg6 arg7 harg7 arg8 harg8 arg9 harg9 arg10 harg10 hc0 hc1 x0 x1 x2 x3) (ix2 p (0 : Fin 1))).trans ?_
  refine (Pay.pay12_apply x2 x3 (k0_pay5 (F := Ideal)) p).trans ?_
  rw [Pay.pay5_apply p, zero_add]

theorem scrA_2 (c : Dev nD) (i : grid0.Coords) (arg2 : Memref sig .tc .vmem S512x256 .bf16) (harg2 : arg2.IsWhole) (arg3 : Memref sig .tc .vmem S1024x256 .bf16) (harg3 : arg3.IsWhole) (arg4 : Memref sig .tc .vmem S512x1024 .f32) (harg4 : arg4.IsWhole) (arg5 : Memref sig .tc .vmem S512x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec Ideal S512x256 .bf16) (x1 : Vec Ideal S1024x256 .bf16) (x2 : Vec Ideal S512x1024 .f32) (x3 : Vec Ideal S512x1024 .i32) (p : Fin 512) :
    sout0_A_2 (F := Ideal) c i arg2 harg2 arg3 harg3 arg4 harg4 arg5 harg5 arg6 harg6 arg7 harg7 arg8 harg8 arg9 harg9 arg10 harg10 hc0 hc1 x0 x1 x2 x3 (ix2 p (0 : Fin 1)) = tileE x0 x1 p := by
  refine (congrFun (piece_A_2 (F := Ideal) c i arg2 harg2 arg3 harg3 arg4 harg4 arg5 harg5 arg6 harg6 arg7 harg7 arg8 harg8 arg9 harg9 arg10 harg10 hc0 hc1 x0 x1 x2 x3) (ix2 p (0 : Fin 1))).trans ?_
  refine (Pay.pay1_apply x0 x1 (k0_pay6 (F := Ideal)) p).trans ?_
  rw [Pay.pay6_apply p, zero_add]

theorem scrA_3 (c : Dev nD) (i : grid0.Coords) (arg2 : Memref sig .tc .vmem S512x256 .bf16) (harg2 : arg2.IsWhole) (arg3 : Memref sig .tc .vmem S1024x256 .bf16) (harg3 : arg3.IsWhole) (arg4 : Memref sig .tc .vmem S512x1024 .f32) (harg4 : arg4.IsWhole) (arg5 : Memref sig .tc .vmem S512x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec Ideal S512x256 .bf16) (x1 : Vec Ideal S1024x256 .bf16) (x2 : Vec Ideal S512x1024 .f32) (x3 : Vec Ideal S512x1024 .i32) (p : Fin 512) :
    sout0_A_3 (F := Ideal) c i arg2 harg2 arg3 harg3 arg4 harg4 arg5 harg5 arg6 harg6 arg7 harg7 arg8 harg8 arg9 harg9 arg10 harg10 hc0 hc1 x0 x1 x2 x3 (ix2 p (0 : Fin 1)) = tileC x3 p := by
  refine (congrFun (piece_A_3 (F := Ideal) c i arg2 harg2 arg3 harg3 arg4 harg4 arg5 harg5 arg6 harg6 arg7 harg7 arg8 harg8 arg9 harg9 arg10 harg10 hc0 hc1 x0 x1 x2 x3) (ix2 p (0 : Fin 1))).trans ?_
  refine (Pay.pay2_apply x3 (k0_pay7 (F := Ideal)) p).trans ?_
  rw [Pay.pay7_apply p, zero_add]

theorem scrB_0 (c : Dev nD) (i : grid0.Coords) (arg2 : Memref sig .tc .vmem S512x256 .bf16) (harg2 : arg2.IsWhole) (arg3 : Memref sig .tc .vmem S1024x256 .bf16) (harg3 : arg3.IsWhole) (arg4 : Memref sig .tc .vmem S512x1024 .f32) (harg4 : arg4.IsWhole) (arg5 : Memref sig .tc .vmem S512x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec Ideal S512x256 .bf16) (x1 : Vec Ideal S1024x256 .bf16) (x2 : Vec Ideal S512x1024 .f32) (x3 : Vec Ideal S512x1024 .i32) (xs0 xs1 xs2 xs3 : Vec Ideal S512x1 .f32) (p : Fin 512) :
    sout0_B_0 (F := Ideal) c i arg2 harg2 arg3 harg3 arg4 harg4 arg5 harg5 arg6 harg6 arg7 harg7 arg8 harg8 arg9 harg9 arg10 harg10 hc0 hc1 x0 x1 x2 x3 xs0 xs1 xs2 xs3 (ix2 p (0 : Fin 1)) = xs0 (ix2 p (0 : Fin 1)) + tileA x0 x1 x2 x3 p := by
  exact (congrFun (piece_B_0 (F := Ideal) c i arg2 harg2 arg3 harg3 arg4 harg4 arg5 harg5 arg6 harg6 arg7 harg7 arg8 harg8 arg9 harg9 arg10 harg10 hc0 hc1 x0 x1 x2 x3 xs0 xs1 xs2 xs3) (ix2 p (0 : Fin 1))).trans (Pay.pay11_apply x0 x1 x2 x3 xs0 p)

theorem scrB_1 (c : Dev nD) (i : grid0.Coords) (arg2 : Memref sig .tc .vmem S512x256 .bf16) (harg2 : arg2.IsWhole) (arg3 : Memref sig .tc .vmem S1024x256 .bf16) (harg3 : arg3.IsWhole) (arg4 : Memref sig .tc .vmem S512x1024 .f32) (harg4 : arg4.IsWhole) (arg5 : Memref sig .tc .vmem S512x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec Ideal S512x256 .bf16) (x1 : Vec Ideal S1024x256 .bf16) (x2 : Vec Ideal S512x1024 .f32) (x3 : Vec Ideal S512x1024 .i32) (xs0 xs1 xs2 xs3 : Vec Ideal S512x1 .f32) (p : Fin 512) :
    sout0_B_1 (F := Ideal) c i arg2 harg2 arg3 harg3 arg4 harg4 arg5 harg5 arg6 harg6 arg7 harg7 arg8 harg8 arg9 harg9 arg10 harg10 hc0 hc1 x0 x1 x2 x3 xs0 xs1 xs2 xs3 (ix2 p (0 : Fin 1)) = xs1 (ix2 p (0 : Fin 1)) + tileS x2 x3 p := by
  exact (congrFun (piece_B_1 (F := Ideal) c i arg2 harg2 arg3 harg3 arg4 harg4 arg5 harg5 arg6 harg6 arg7 harg7 arg8 harg8 arg9 harg9 arg10 harg10 hc0 hc1 x0 x1 x2 x3 xs0 xs1 xs2 xs3) (ix2 p (0 : Fin 1))).trans (Pay.pay12_apply x2 x3 xs1 p)

theorem scrB_2 (c : Dev nD) (i : grid0.Coords) (arg2 : Memref sig .tc .vmem S512x256 .bf16) (harg2 : arg2.IsWhole) (arg3 : Memref sig .tc .vmem S1024x256 .bf16) (harg3 : arg3.IsWhole) (arg4 : Memref sig .tc .vmem S512x1024 .f32) (harg4 : arg4.IsWhole) (arg5 : Memref sig .tc .vmem S512x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec Ideal S512x256 .bf16) (x1 : Vec Ideal S1024x256 .bf16) (x2 : Vec Ideal S512x1024 .f32) (x3 : Vec Ideal S512x1024 .i32) (xs0 xs1 xs2 xs3 : Vec Ideal S512x1 .f32) (p : Fin 512) :
    sout0_B_2 (F := Ideal) c i arg2 harg2 arg3 harg3 arg4 harg4 arg5 harg5 arg6 harg6 arg7 harg7 arg8 harg8 arg9 harg9 arg10 harg10 hc0 hc1 x0 x1 x2 x3 xs0 xs1 xs2 xs3 (ix2 p (0 : Fin 1)) = xs2 (ix2 p (0 : Fin 1)) + tileE x0 x1 p := by
  exact (congrFun (piece_B_2 (F := Ideal) c i arg2 harg2 arg3 harg3 arg4 harg4 arg5 harg5 arg6 harg6 arg7 harg7 arg8 harg8 arg9 harg9 arg10 harg10 hc0 hc1 x0 x1 x2 x3 xs0 xs1 xs2 xs3) (ix2 p (0 : Fin 1))).trans (Pay.pay1_apply x0 x1 xs2 p)

theorem scrB_3 (c : Dev nD) (i : grid0.Coords) (arg2 : Memref sig .tc .vmem S512x256 .bf16) (harg2 : arg2.IsWhole) (arg3 : Memref sig .tc .vmem S1024x256 .bf16) (harg3 : arg3.IsWhole) (arg4 : Memref sig .tc .vmem S512x1024 .f32) (harg4 : arg4.IsWhole) (arg5 : Memref sig .tc .vmem S512x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec Ideal S512x256 .bf16) (x1 : Vec Ideal S1024x256 .bf16) (x2 : Vec Ideal S512x1024 .f32) (x3 : Vec Ideal S512x1024 .i32) (xs0 xs1 xs2 xs3 : Vec Ideal S512x1 .f32) (p : Fin 512) :
    sout0_B_3 (F := Ideal) c i arg2 harg2 arg3 harg3 arg4 harg4 arg5 harg5 arg6 harg6 arg7 harg7 arg8 harg8 arg9 harg9 arg10 harg10 hc0 hc1 x0 x1 x2 x3 xs0 xs1 xs2 xs3 (ix2 p (0 : Fin 1)) = xs3 (ix2 p (0 : Fin 1)) + tileC x3 p := by
  exact (congrFun (piece_B_3 (F := Ideal) c i arg2 harg2 arg3 harg3 arg4 harg4 arg5 harg5 arg6 harg6 arg7 harg7 arg8 harg8 arg9 harg9 arg10 harg10 hc0 hc1 x0 x1 x2 x3 xs0 xs1 xs2 xs3) (ix2 p (0 : Fin 1))).trans (Pay.pay2_apply x3 xs3 p)

theorem scrC_0 (c : Dev nD) (i : grid0.Coords) (arg2 : Memref sig .tc .vmem S512x256 .bf16) (harg2 : arg2.IsWhole) (arg3 : Memref sig .tc .vmem S1024x256 .bf16) (harg3 : arg3.IsWhole) (arg4 : Memref sig .tc .vmem S512x1024 .f32) (harg4 : arg4.IsWhole) (arg5 : Memref sig .tc .vmem S512x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec Ideal S512x256 .bf16) (x1 : Vec Ideal S1024x256 .bf16) (x2 : Vec Ideal S512x1024 .f32) (x3 : Vec Ideal S512x1024 .i32) (xs0 xs1 xs2 xs3 : Vec Ideal S512x1 .f32) (p : Fin 512) :
    sout0_C_0 (F := Ideal) c i arg2 harg2 arg3 harg3 arg4 harg4 arg5 harg5 arg6 harg6 arg7 harg7 arg8 harg8 arg9 harg9 arg10 harg10 hc0 hc1 x0 x1 x2 x3 xs0 xs1 xs2 xs3 (ix2 p (0 : Fin 1)) = xs0 (ix2 p (0 : Fin 1)) + tileA x0 x1 x2 x3 p := by
  exact (congrFun (piece_C_0 (F := Ideal) c i arg2 harg2 arg3 harg3 arg4 harg4 arg5 harg5 arg6 harg6 arg7 harg7 arg8 harg8 arg9 harg9 arg10 harg10 hc0 hc1 x0 x1 x2 x3 xs0 xs1 xs2 xs3) (ix2 p (0 : Fin 1))).trans (Pay.pay11_apply x0 x1 x2 x3 xs0 p)

theorem scrC_1 (c : Dev nD) (i : grid0.Coords) (arg2 : Memref sig .tc .vmem S512x256 .bf16) (harg2 : arg2.IsWhole) (arg3 : Memref sig .tc .vmem S1024x256 .bf16) (harg3 : arg3.IsWhole) (arg4 : Memref sig .tc .vmem S512x1024 .f32) (harg4 : arg4.IsWhole) (arg5 : Memref sig .tc .vmem S512x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec Ideal S512x256 .bf16) (x1 : Vec Ideal S1024x256 .bf16) (x2 : Vec Ideal S512x1024 .f32) (x3 : Vec Ideal S512x1024 .i32) (xs0 xs1 xs2 xs3 : Vec Ideal S512x1 .f32) (p : Fin 512) :
    sout0_C_1 (F := Ideal) c i arg2 harg2 arg3 harg3 arg4 harg4 arg5 harg5 arg6 harg6 arg7 harg7 arg8 harg8 arg9 harg9 arg10 harg10 hc0 hc1 x0 x1 x2 x3 xs0 xs1 xs2 xs3 (ix2 p (0 : Fin 1)) = xs1 (ix2 p (0 : Fin 1)) + tileS x2 x3 p := by
  exact (congrFun (piece_C_1 (F := Ideal) c i arg2 harg2 arg3 harg3 arg4 harg4 arg5 harg5 arg6 harg6 arg7 harg7 arg8 harg8 arg9 harg9 arg10 harg10 hc0 hc1 x0 x1 x2 x3 xs0 xs1 xs2 xs3) (ix2 p (0 : Fin 1))).trans (Pay.pay12_apply x2 x3 xs1 p)

theorem scrC_2 (c : Dev nD) (i : grid0.Coords) (arg2 : Memref sig .tc .vmem S512x256 .bf16) (harg2 : arg2.IsWhole) (arg3 : Memref sig .tc .vmem S1024x256 .bf16) (harg3 : arg3.IsWhole) (arg4 : Memref sig .tc .vmem S512x1024 .f32) (harg4 : arg4.IsWhole) (arg5 : Memref sig .tc .vmem S512x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec Ideal S512x256 .bf16) (x1 : Vec Ideal S1024x256 .bf16) (x2 : Vec Ideal S512x1024 .f32) (x3 : Vec Ideal S512x1024 .i32) (xs0 xs1 xs2 xs3 : Vec Ideal S512x1 .f32) (p : Fin 512) :
    sout0_C_2 (F := Ideal) c i arg2 harg2 arg3 harg3 arg4 harg4 arg5 harg5 arg6 harg6 arg7 harg7 arg8 harg8 arg9 harg9 arg10 harg10 hc0 hc1 x0 x1 x2 x3 xs0 xs1 xs2 xs3 (ix2 p (0 : Fin 1)) = xs2 (ix2 p (0 : Fin 1)) + tileE x0 x1 p := by
  exact (congrFun (piece_C_2 (F := Ideal) c i arg2 harg2 arg3 harg3 arg4 harg4 arg5 harg5 arg6 harg6 arg7 harg7 arg8 harg8 arg9 harg9 arg10 harg10 hc0 hc1 x0 x1 x2 x3 xs0 xs1 xs2 xs3) (ix2 p (0 : Fin 1))).trans (Pay.pay1_apply x0 x1 xs2 p)

theorem scrC_3 (c : Dev nD) (i : grid0.Coords) (arg2 : Memref sig .tc .vmem S512x256 .bf16) (harg2 : arg2.IsWhole) (arg3 : Memref sig .tc .vmem S1024x256 .bf16) (harg3 : arg3.IsWhole) (arg4 : Memref sig .tc .vmem S512x1024 .f32) (harg4 : arg4.IsWhole) (arg5 : Memref sig .tc .vmem S512x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec Ideal S512x256 .bf16) (x1 : Vec Ideal S1024x256 .bf16) (x2 : Vec Ideal S512x1024 .f32) (x3 : Vec Ideal S512x1024 .i32) (xs0 xs1 xs2 xs3 : Vec Ideal S512x1 .f32) (p : Fin 512) :
    sout0_C_3 (F := Ideal) c i arg2 harg2 arg3 harg3 arg4 harg4 arg5 harg5 arg6 harg6 arg7 harg7 arg8 harg8 arg9 harg9 arg10 harg10 hc0 hc1 x0 x1 x2 x3 xs0 xs1 xs2 xs3 (ix2 p (0 : Fin 1)) = xs3 (ix2 p (0 : Fin 1)) + tileC x3 p := by
  exact (congrFun (piece_C_3 (F := Ideal) c i arg2 harg2 arg3 harg3 arg4 harg4 arg5 harg5 arg6 harg6 arg7 harg7 arg8 harg8 arg9 harg9 arg10 harg10 hc0 hc1 x0 x1 x2 x3 xs0 xs1 xs2 xs3) (ix2 p (0 : Fin 1))).trans (Pay.pay2_apply x3 xs3 p)

theorem outC (c : Dev nD) (i : grid0.Coords) (arg2 : Memref sig .tc .vmem S512x256 .bf16) (harg2 : arg2.IsWhole) (arg3 : Memref sig .tc .vmem S1024x256 .bf16) (harg3 : arg3.IsWhole) (arg4 : Memref sig .tc .vmem S512x1024 .f32) (harg4 : arg4.IsWhole) (arg5 : Memref sig .tc .vmem S512x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec Ideal S512x256 .bf16) (x1 : Vec Ideal S1024x256 .bf16) (x2 : Vec Ideal S512x1024 .f32) (x3 : Vec Ideal S512x1024 .i32) (xs0 xs1 xs2 xs3 : Vec Ideal S512x1 .f32) (p : Fin 512) :
    out0_C_4 (F := Ideal) c i arg2 harg2 arg3 harg3 arg4 harg4 arg5 harg5 arg6 harg6 arg7 harg7 arg8 harg8 arg9 harg9 arg10 harg10 hc0 hc1 x0 x1 x2 x3 xs0 xs1 xs2 xs3 (ix2 p (0 : Fin 1))
      = Ideal.div (0 - ((xs0 (ix2 p (0 : Fin 1)) + tileA x0 x1 x2 x3 p)
            - Ideal.log (xs2 (ix2 p (0 : Fin 1)) + tileE x0 x1 p) * (xs1 (ix2 p (0 : Fin 1)) + tileS x2 x3 p)))
          (max (xs3 (ix2 p (0 : Fin 1)) + tileC x3 p) Cert.Loss.one) := by
  refine (congrFun (piece_C_out (F := Ideal) c i arg2 harg2 arg3 harg3 arg4 harg4 arg5 harg5 arg6 harg6 arg7 harg7 arg8 harg8 arg9 harg9 arg10 harg10 hc0 hc1 x0 x1 x2 x3 xs0 xs1 xs2 xs3) (ix2 p (0 : Fin 1))).trans ?_
  refine (Pay.pay3_apply (k0_pay1 (F := Ideal) xs2 (k0_pay13 (F := Ideal) x0 x1)) (k0_pay2 (F := Ideal) (k0_pay9 (F := Ideal) x3) xs3)
    (k0_pay11 (F := Ideal) x0 x1 x3 x2 xs0) (k0_pay12 (F := Ideal) x3 x2 xs1) p).trans ?_
  rw [Pay.pay1_apply x0 x1 xs2 p, Pay.pay2_apply x3 xs3 p, Pay.pay11_apply x0 x1 x2 x3 xs0 p, Pay.pay12_apply x2 x3 xs1 p]

end Cert.KernelIdeal.Body

end
-- ==== Proof.KerInvariant.lean ====
/-
  The running row sums after every grid point, and the output block a row tile's last point writes.

  After point `t = 8 * r + k` the four scratch columns hold, at entry `p`, the sums over the columns `j < 1024 * (k + 1)`
  of row `512 * r + p` (induction over the points; sums on the extended reals are associative and commutative, so the
  block-by-block accumulation is the one sum).  At `k = 7` these are the full row sums and the block written is the
  row loss.
-/
import proofs.«161606_j53386443489488_1_alg».proof.Proof.KerDefs
import proofs.«161606_j53386443489488_1_alg».proof.Proof.KerBody
import proofs.«161606_j53386443489488_1_alg».proof.Proof.KerBlocks

set_option maxRecDepth 16384

noncomputable section

namespace Cert.KernelIdeal.Inv

open Idealize.ShloMosaic Idealize.ShloMosaic.ValueIdx Idealize.SL.Sem Cert.KernelIdeal Cert.KernelIdeal.Gen Cert.KernelIdeal.Tile
open scoped BigOperators

/-! ### Sums over the columns below a bound -/

/-- The sum of `f` over the columns below `b`. -/
def psum (f : Fin 8192 → EReal) (b : ℕ) : EReal :=
  ∑ j ∈ Finset.univ.filter (fun j : Fin 8192 => j.val < b), f j

/-- No column lies below `0`. -/
theorem psum_zero (f : Fin 8192 → EReal) : psum f 0 = 0 := by
  unfold psum
  rw [Finset.filter_false_of_mem (fun j _ => Nat.not_lt_zero j.val)]
  exact Finset.sum_empty

/-- Every column lies below `8192 = 1024 * 8`. -/
theorem psum_full (f : Fin 8192 → EReal) : psum f (1024 * (7 + 1)) = ∑ j : Fin 8192, f j := by
  unfold psum
  rw [Finset.filter_true_of_mem (fun j _ => j.isLt)]

/-- The columns below `1024 * (k + 1)` are those below `1024 * k` and the `1024` columns of tile `k`. -/
theorem psum_succ (f : Fin 8192 → EReal) (k : ℕ) (hk : k < 8) :
    psum f (1024 * (k + 1))
      = psum f (1024 * k) + ∑ l : Fin 1024, f ⟨1024 * k + l.val, by have := l.isLt; omega⟩ := by
  unfold psum
  have hsplit : Finset.univ.filter (fun j : Fin 8192 => j.val < 1024 * (k + 1))
      = Finset.univ.filter (fun j : Fin 8192 => j.val < 1024 * k)
        ∪ Finset.univ.filter (fun j : Fin 8192 => 1024 * k ≤ j.val ∧ j.val < 1024 * (k + 1)) := by
    ext j
    simp only [Finset.mem_filter, Finset.mem_univ, true_and, Finset.mem_union]
    omega
  have hdisj : Disjoint (Finset.univ.filter (fun j : Fin 8192 => j.val < 1024 * k))
      (Finset.univ.filter (fun j : Fin 8192 => 1024 * k ≤ j.val ∧ j.val < 1024 * (k + 1))) := by
    rw [Finset.disjoint_left]
    intro j h1 h2
    simp only [Finset.mem_filter, Finset.mem_univ, true_and] at h1 h2
    omega
  rw [hsplit, Finset.sum_union hdisj]
  congr 1
  symm
  refine Finset.sum_bij (fun (l : Fin 1024) _ => (⟨1024 * k + l.val, by have := l.isLt; omega⟩ : Fin 8192)) ?_ ?_ ?_ ?_
  · intro l _
    simp only [Finset.mem_filter, Finset.mem_univ, true_and]
    have := l.isLt
    omega
  · intro a _ b _ h
    have h' := congrArg Fin.val h
    simp only at h'
    exact Fin.ext (by omega)
  · intro j hj
    simp only [Finset.mem_filter, Finset.mem_univ, true_and] at hj
    exact ⟨⟨j.val - 1024 * k, by omega⟩, Finset.mem_univ _, Fin.ext (by simp only; omega)⟩
  · intro l _
    rfl

/-! ### A point and the point before it -/

/-- The point before `t` (the first point is its own). -/
abbrev prev (t : Fin cfg0.N) : Fin cfg0.N := ⟨t.val - 1, Nat.lt_of_le_of_lt (Nat.sub_le _ _) t.isLt⟩

/-- Inside a row tile the point before works on the same rows. -/
theorem rowOf_prev (t : Fin cfg0.N) (h0 : ¬t.val % 8 = 0) (p : Fin 512) : rowOf (prev t) p = rowOf t p := by
  apply Fin.ext
  show 512 * ((t.val - 1) / 8) + p.val = 512 * (t.val / 8) + p.val
  omega

/-- Inside a row tile the point before works on the column tile to the left. -/
theorem prev_mod (t : Fin cfg0.N) (h0 : ¬t.val % 8 = 0) : (prev t).val % 8 + 1 = t.val % 8 := by
  show (t.val - 1) % 8 + 1 = t.val % 8
  omega

/-- The columns below the end of point `t`'s tile: those below its start, and the tile's own. -/
theorem psum_step (f : Fin 8192 → EReal) (t : Fin cfg0.N) :
    psum f (1024 * (t.val % 8 + 1)) = psum f (1024 * (t.val % 8)) + ∑ l : Fin 1024, f (colOf t l) :=
  psum_succ f (t.val % 8) (Nat.mod_lt _ (by decide))

/-- At a row tile's first point the tile's share is the whole partial sum. -/
theorem acc_first (f : Fin 8192 → Fin 8192 → EReal) (t : Fin cfg0.N) (h0 : t.val % 8 = 0) (p : Fin 512) (tile : EReal)
    (htile : tile = ∑ l : Fin 1024, f (rowOf t p) (colOf t l)) :
    tile = psum (f (rowOf t p)) (1024 * (t.val % 8 + 1)) := by
  rw [psum_step, h0, Nat.mul_zero, psum_zero, zero_add]
  exact htile

/-- At a later point: the partial sum the point before left, plus the tile's share. -/
theorem acc_step (f : Fin 8192 → Fin 8192 → EReal) (t : Fin cfg0.N) (h0 : ¬t.val % 8 = 0) (p : Fin 512) (x tile : EReal)
    (hx : x = psum (f (rowOf (prev t) p)) (1024 * ((prev t).val % 8 + 1)))
    (htile : tile = ∑ l : Fin 1024, f (rowOf t p) (colOf t l)) :
    x + tile = psum (f (rowOf t p)) (1024 * (t.val % 8 + 1)) := by
  rw [psum_step, hx, htile, rowOf_prev t h0 p, prev_mod t h0]

/-- At a row tile's last point the sum is over the whole row. -/
theorem acc_last (f : Fin 8192 → Fin 8192 → EReal) (t : Fin cfg0.N) (h0 : ¬t.val % 8 = 0) (h7 : t.val % 8 = 7) (p : Fin 512)
    (x tile : EReal)
    (hx : x = psum (f (rowOf (prev t) p)) (1024 * ((prev t).val % 8 + 1)))
    (htile : tile = ∑ l : Fin 1024, f (rowOf t p) (colOf t l)) :
    x + tile = ∑ j : Fin 8192, f (rowOf t p) j := by
  rw [acc_step f t h0 p x tile hx htile, h7]
  exact psum_full _

/-- The row loss is a function of the four row sums. -/
theorem loss_congr {a s e k a' s' e' k' : EReal} (ha : a = a') (hs : s = s') (he : e = e') (hk : k = k') :
    Ideal.div (0 - (a - Ideal.log e * s)) (max k Cert.Loss.one)
      = Ideal.div (0 - (a' - Ideal.log e' * s')) (max k' Cert.Loss.one) := by
  subst ha hs he hk
  rfl

variable (m : (ℓ : Loc nD τ sig) → Buf (Elt Ideal) ℓ)

/-! ### The four summands, and a tile's share in the arrays' coordinates -/

/-- Mask times weight times scaled similarity. -/
def fA (c : Dev nD) (i j : Fin 8192) : EReal :=
  Cert.Loss.mw (arrW m c) (arrM m c) i j * Cert.Loss.simK (arrN1 m c) (arrN2 m c) i j
/-- Mask times weight. -/
def fS (c : Dev nD) (i j : Fin 8192) : EReal := Cert.Loss.mw (arrW m c) (arrM m c) i j
/-- The exponential of the scaled similarity. -/
def fE (c : Dev nD) (i j : Fin 8192) : EReal := Ideal.exp (Cert.Loss.simK (arrN1 m c) (arrN2 m c) i j)
/-- The mask. -/
def fC (c : Dev nD) (i j : Fin 8192) : EReal := Cert.Loss.mf (arrM m c) i j

/-- The kernel-form row loss over the four summands. -/
theorem lossK_eq (c : Dev nD) (i : Fin 8192) :
    Cert.Loss.lossK (arrN1 m c) (arrN2 m c) (arrW m c) (arrM m c) i
      = Ideal.div (0 - ((∑ j : Fin 8192, fA m c i j) - Ideal.log (∑ j : Fin 8192, fE m c i j) * (∑ j : Fin 8192, fS m c i j)))
          (max (∑ j : Fin 8192, fC m c i j) Cert.Loss.one) := rfl

theorem tmf_blk (c : Dev nD) (t : Fin cfg0.N) (p : Fin 512) (l : Fin 1024) :
    tmf (blk3 m c t) p l = Cert.Loss.mf (arrM m c) (rowOf t p) (colOf t l) := by
  unfold tmf Cert.Loss.mf
  rw [Blocks.blk3_apply m c t p l]

theorem tmw_blk (c : Dev nD) (t : Fin cfg0.N) (p : Fin 512) (l : Fin 1024) :
    tmw (blk2 m c t) (blk3 m c t) p l = Cert.Loss.mw (arrW m c) (arrM m c) (rowOf t p) (colOf t l) := by
  unfold tmw Cert.Loss.mw
  rw [tmf_blk m c t p l, Blocks.blk2_apply m c t p l]

theorem tdot_blk (c : Dev nD) (t : Fin cfg0.N) (p : Fin 512) (l : Fin 1024) :
    tdot (blk0 m c t) (blk1 m c t) p l = Cert.Loss.dot (arrN1 m c) (arrN2 m c) (rowOf t p) (colOf t l) := by
  unfold tdot Cert.Loss.dot
  exact Finset.sum_congr rfl (fun d _ => by rw [Blocks.blk0_apply m c t p d, Blocks.blk1_apply m c t l d])

theorem tsim_blk (c : Dev nD) (t : Fin cfg0.N) (p : Fin 512) (l : Fin 1024) :
    tsim (blk0 m c t) (blk1 m c t) p l = Cert.Loss.simK (arrN1 m c) (arrN2 m c) (rowOf t p) (colOf t l) := by
  unfold tsim Cert.Loss.simK
  rw [tdot_blk m c t p l]

/-- The tile's share of the first sum, over the tile's columns of the arrays. -/
theorem tileA_blk (c : Dev nD) (t : Fin cfg0.N) (p : Fin 512) :
    tileA (blk0 m c t) (blk1 m c t) (blk2 m c t) (blk3 m c t) p = ∑ l : Fin 1024, fA m c (rowOf t p) (colOf t l) := by
  unfold tileA fA
  exact Finset.sum_congr rfl (fun l _ => by rw [tmw_blk m c t p l, tsim_blk m c t p l])

theorem tileS_blk (c : Dev nD) (t : Fin cfg0.N) (p : Fin 512) :
    tileS (blk2 m c t) (blk3 m c t) p = ∑ l : Fin 1024, fS m c (rowOf t p) (colOf t l) := by
  unfold tileS fS
  exact Finset.sum_congr rfl (fun l _ => tmw_blk m c t p l)

theorem tileE_blk (c : Dev nD) (t : Fin cfg0.N) (p : Fin 512) :
    tileE (blk0 m c t) (blk1 m c t) p = ∑ l : Fin 1024, fE m c (rowOf t p) (colOf t l) := by
  unfold tileE fE
  exact Finset.sum_congr rfl (fun l _ => by rw [tsim_blk m c t p l])

theorem tileC_blk (c : Dev nD) (t : Fin cfg0.N) (p : Fin 512) :
    tileC (blk3 m c t) p = ∑ l : Fin 1024, fC m c (rowOf t p) (colOf t l) := by
  unfold tileC fC
  exact Finset.sum_congr rfl (fun l _ => tmf_blk m c t p l)

/-! ### The invariant -/

/-- After point `t` each running sum holds, at entry `p`, its summand over the columns up to the end of `t`'s tile. -/
structure InvAt (c : Dev nD) (t : Fin cfg0.N) : Prop where
  a : ∀ p : Fin 512, (outsAt0 m c t.val t.isLt).2.1 (ix2 p (0 : Fin 1)) = psum (fA m c (rowOf t p)) (1024 * (t.val % 8 + 1))
  s : ∀ p : Fin 512, (outsAt0 m c t.val t.isLt).2.2.1 (ix2 p (0 : Fin 1)) = psum (fS m c (rowOf t p)) (1024 * (t.val % 8 + 1))
  e : ∀ p : Fin 512, (outsAt0 m c t.val t.isLt).2.2.2.1 (ix2 p (0 : Fin 1)) = psum (fE m c (rowOf t p)) (1024 * (t.val % 8 + 1))
  k : ∀ p : Fin 512, (outsAt0 m c t.val t.isLt).2.2.2.2 (ix2 p (0 : Fin 1)) = psum (fC m c (rowOf t p)) (1024 * (t.val % 8 + 1))

/-- A row tile's first point resets the sums and adds its tile's share. -/
theorem inv_A (c : Dev nD) (t : Fin cfg0.N) (h0 : t.val % 8 = 0) : InvAt m c t := by
  have h1 : ¬t.val % 8 = 7 := by omega
  refine ⟨fun p => ?_, fun p => ?_, fun p => ?_, fun p => ?_⟩
  · rw [outsAt0_A m c t h0 h1]; dsimp only
    refine (Body.scrA_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (blk0 m c t) (blk1 m c t) (blk2 m c t) (blk3 m c t) p).trans ?_
    exact acc_first (fA m c) t h0 p _ (tileA_blk m c t p)
  · rw [outsAt0_A m c t h0 h1]; dsimp only
    refine (Body.scrA_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (blk0 m c t) (blk1 m c t) (blk2 m c t) (blk3 m c t) p).trans ?_
    exact acc_first (fS m c) t h0 p _ (tileS_blk m c t p)
  · rw [outsAt0_A m c t h0 h1]; dsimp only
    refine (Body.scrA_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (blk0 m c t) (blk1 m c t) (blk2 m c t) (blk3 m c t) p).trans ?_
    exact acc_first (fE m c) t h0 p _ (tileE_blk m c t p)
  · rw [outsAt0_A m c t h0 h1]; dsimp only
    refine (Body.scrA_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (blk0 m c t) (blk1 m c t) (blk2 m c t) (blk3 m c t) p).trans ?_
    exact acc_first (fC m c) t h0 p _ (tileC_blk m c t p)

/-- A later point adds its tile's share to what the point before left. -/
theorem inv_B (c : Dev nD) (t : Fin cfg0.N) (h0 : ¬t.val % 8 = 0) (h1 : ¬t.val % 8 = 7) (hp : InvAt m c (prev t)) :
    InvAt m c t := by
  refine ⟨fun p => ?_, fun p => ?_, fun p => ?_, fun p => ?_⟩
  · rw [outsAt0_B m c t h0 h1]; dsimp only
    refine (Body.scrB_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (blk0 m c t) (blk1 m c t) (blk2 m c t) (blk3 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 p).trans ?_
    exact acc_step (fA m c) t h0 p _ _ (hp.a p) (tileA_blk m c t p)
  · rw [outsAt0_B m c t h0 h1]; dsimp only
    refine (Body.scrB_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (blk0 m c t) (blk1 m c t) (blk2 m c t) (blk3 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 p).trans ?_
    exact acc_step (fS m c) t h0 p _ _ (hp.s p) (tileS_blk m c t p)
  · rw [outsAt0_B m c t h0 h1]; dsimp only
    refine (Body.scrB_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (blk0 m c t) (blk1 m c t) (blk2 m c t) (blk3 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 p).trans ?_
    exact acc_step (fE m c) t h0 p _ _ (hp.e p) (tileE_blk m c t p)
  · rw [outsAt0_B m c t h0 h1]; dsimp only
    refine (Body.scrB_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (blk0 m c t) (blk1 m c t) (blk2 m c t) (blk3 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 p).trans ?_
    exact acc_step (fC m c) t h0 p _ _ (hp.k p) (tileC_blk m c t p)

/-- The invariant at the first seven points of every row tile, by induction along the tile. -/
theorem inv_le (c : Dev nD) : ∀ k : ℕ, k ≤ 6 → ∀ t : Fin cfg0.N, t.val % 8 = k → InvAt m c t := by
  intro k
  induction k with
  | zero => intro _ t ht; exact inv_A m c t ht
  | succ k ih =>
    intro hk t ht
    have h0 : ¬t.val % 8 = 0 := by omega
    have h1 : ¬t.val % 8 = 7 := by omega
    exact inv_B m c t h0 h1 (ih (by omega) (prev t) (by show (t.val - 1) % 8 = k; omega))

/-- What a row tile's last point leaves in the output's staging block: the row losses of its 512 rows. -/
theorem flushed_C (c : Dev nD) (t : Fin cfg0.N) (h7 : t.val % 8 = 7) (p : Fin 512) :
    (outsAt0 m c t.val t.isLt).1 (ix2 p (0 : Fin 1))
      = Cert.Loss.lossK (arrN1 m c) (arrN2 m c) (arrW m c) (arrM m c) (rowOf t p) := by
  have h0 : ¬t.val % 8 = 0 := by omega
  have hp : InvAt m c (prev t) := inv_le m c 6 (le_refl 6) (prev t) (by show (t.val - 1) % 8 = 6; omega)
  rw [outsAt0_C m c t h0 h7]; dsimp only
  refine (Body.outC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h7) (blk0 m c t) (blk1 m c t) (blk2 m c t) (blk3 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 p).trans ?_
  refine (loss_congr
    (acc_last (fA m c) t h0 h7 p _ _ (hp.a p) (tileA_blk m c t p))
    (acc_last (fS m c) t h0 h7 p _ _ (hp.s p) (tileS_blk m c t p))
    (acc_last (fE m c) t h0 h7 p _ _ (hp.e p) (tileE_blk m c t p))
    (acc_last (fC m c) t h0 h7 p _ _ (hp.k p) (tileC_blk m c t p))).trans ?_
  exact (lossK_eq m c (rowOf t p)).symm

end Cert.KernelIdeal.Inv

end
-- ==== Proof.KerValue.lean ====
/-
  The idealized kernel's run with its result named: the sum of the 8192 row losses.

  The output array `[8192, 1]` is covered by the blocks the 16 row tiles' last points write back; entry `(i, 0)` is row
  `i`'s loss.  The host then sums the array over both axes.
-/
import proofs.«161606_j53386443489488_1_alg».proof.Proof.KerDefs
import proofs.«161606_j53386443489488_1_alg».proof.Proof.KerInvariant
import Idealize.ShloMosaic.Lib.StableHlo.Run
import Idealize.ShloMosaic.PureOps.Ideal.Laws
import Idealize.ShloMosaic.Lib.Pipeline.Value
import Idealize.ShloMosaic.Lib.ValueLayout

set_option maxRecDepth 16384

noncomputable section

namespace Cert.KernelIdeal.KerValue

open Idealize.ShloMosaic Idealize.ShloMosaic.ValueIdx Idealize.ShloMosaic.TcCoe Idealize.SL.Sem Cert.KernelIdeal Cert.KernelIdeal.Gen Cert.KernelIdeal.Tile
open scoped BigOperators

section Blocks

variable (m : (ℓ : Loc nD τ sig) → Buf (Elt Ideal) ℓ)

/-- The whole output column: entry `(i, 0)` is the loss of row `i`. -/
abbrev lossCol (c : Dev nD) : S8192x1.Idx → EReal :=
  fun q => Cert.Loss.lossK (arrN1 m c) (arrN2 m c) (arrW m c) (arrM m c) (q 0)

/-- The output's block at point `t = 8 * r + k` is block `(r, 0)`: rows `512 * r ..< 512 * (r + 1)` of the one column. -/
theorem out_index : ∀ t : Fin cfg0.N, win0_4.index t (0 : Fin 2) = t.val / 8 ∧ win0_4.index t (1 : Fin 2) = 0 :=
  (by decide +kernel : ∀ t : Fin grid0.N, _)

/-- Reading any contents of the output array through point `t`'s block: entry `j` of the block is the array's entry under it. -/
theorem read_out (G : S8192x1.Idx → EReal) (t : Fin cfg0.N) (j : ((cfg0.win 4).xblock (grid0.coords t)).Idx) :
    ((cfg0.win 4).blk t).view.read (Elt Ideal) G j = G (((cfg0.win 4).blk t).view.emb j) := rfl

/-- What a row tile's last point writes back is that tile's block of the loss column: entry `p` of the block is row
    `512 * r + p` of the array, and the staging block holds that row's loss there. -/
theorem flushed_eq (c : Dev nD) (t : Fin cfg0.N) (hf : (cfg0.win 4).flush t = true) :
    (dats m 0 c).flushed 4 t = ((cfg0.win 4).blk t).view.read (Elt Ideal) (lossCol m c) := by
  have h7 : t.val % 8 = 7 := (flush0_4 t).mp hf
  show (cfg0.win 4).cut (grid0.coords t) ((dats m 0 c).after 4 t) = _
  rw [after0_4]
  obtain ⟨e0, e1⟩ := out_index t
  funext j
  have hp : (j 0).val < 512 := (j 0).isLt
  have hq : (j 1).val < 1 := (j 1).isLt
  -- the block entry, by its two coordinates
  have hx : (cfg0.win 4).xinj (grid0.coords t) j = ix2 (⟨(j 0).val, hp⟩ : Fin 512) (0 : Fin 1) := by
    funext a; apply Fin.ext
    match a with
    | ⟨0, _⟩ => rfl
    | ⟨1, _⟩ => show (j 1).val = 0; omega
  -- the array row it lands on
  have hr : (((cfg0.win 4).blk t).view.emb j) 0 = rowOf t ⟨(j 0).val, hp⟩ := by
    apply Fin.ext
    show win0_4.index t (0 : Fin 2) * 512 + 1 * (j 0).val = 512 * (t.val / 8) + (j 0).val
    rw [e0]; omega
  have h1 : (cfg0.win 4).cut (grid0.coords t) (outsAt0 m c t.val t.isLt).1 j
      = (outsAt0 m c t.val t.isLt).1 ((cfg0.win 4).xinj (grid0.coords t) j) := rfl
  rw [h1, read_out (lossCol m c) t j, hx]
  exact (Inv.flushed_C m c t h7 ⟨(j 0).val, hp⟩).trans
    (congrArg (Cert.Loss.lossK (arrN1 m c) (arrN2 m c) (arrW m c) (arrM m c)) hr.symm)

/-- An entry of the array lies in point `t`'s block iff each coordinate lies in the block's range on its axis. -/
theorem mem_blk (t : Fin cfg0.N) (i : S8192x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v12).slice (win0_4.rect t)).set ↔ _
  rw [View.set_slice_whole, Rect.mem_set_unit]
  exact Iff.rfl

/-- Every entry `(i, 0)` is written back by the last point of its row tile, `t = 8 * (i / 512) + 7`. -/
theorem covered (i : S8192x1.Idx) :
    ∃ t : Fin cfg0.N, (cfg0.win 4).flush t = true ∧ i ∈ ((cfg0.win 4).blk t).view.set := by
  have hi0 : (i 0).val < 8192 := (i 0).isLt
  have hi1 : (i 1).val < 1 := (i 1).isLt
  have hN : cfg0.N = 128 := N_0
  obtain ⟨t, ht⟩ : ∃ t : Fin cfg0.N, t.val = 8 * ((i 0).val / 512) + 7 := ⟨⟨8 * ((i 0).val / 512) + 7, by omega⟩, rfl⟩
  obtain ⟨e0, e1⟩ := out_index t
  refine ⟨t, (flush0_4 t).mpr (by omega), ?_⟩
  rw [mem_blk]
  intro a
  match a with
  | ⟨0, _⟩ =>
    show win0_4.index t (0 : Fin 2) * 512 ≤ (i 0).val ∧ (i 0).val < win0_4.index t (0 : Fin 2) * 512 + 512
    rw [e0]; omega
  | ⟨1, _⟩ =>
    show win0_4.index t (1 : Fin 2) * 1 ≤ (i 1).val ∧ (i 1).val < win0_4.index t (1 : Fin 2) * 1 + 1
    rw [e1]; omega

/-- The output array after the region is the loss column. -/
theorem final (c : Dev nD) : (dats m 0 c).arrAt 4 cfg0.N = lossCol m c :=
  (dats m 0 c).arrAt_eq_of_cover 4 (lossCol m c) (fun t hf => flushed_eq m c t hf) (covered)

/-- The same, as the host operations after the region read it. -/
theorem out_arr (c : Dev nD) :
    Pipeline.withArrays spec0 c (V0 m c) (fun w => (dats m 0 c).arrAt w cfg0.N) (Proc.devRef .tc main_v12) = lossCol m c :=
  (Pipeline.withArrays_arr spec0 launch0.win.arr_inj c _ _ 4).trans (final m c)

/-- The sum of the loss column over both axes is the sum of the row losses: the second axis has one coordinate. -/
theorem sum_lossCol (c : Dev nD) :
    ∑ q : S8192x1.Idx, lossCol m c q = Cert.Loss.totalK (arrN1 m c) (arrN2 m c) (arrW m c) (arrM m c) := by
  rw [sum_idx2]
  unfold Cert.Loss.totalK
  refine Finset.sum_congr rfl fun i _ => ?_
  rw [Fin.sum_univ_one]

/-- The host's sum of the output array over both axes, from the zero word, is the total of the row losses. -/
theorem total (c : Dev nD) :
    Pipeline.afterTail₀ cfgs (dats m) 0 (V0 m) [hostOps1] c main_v13
      = fun _ => Cert.Loss.totalK (arrN1 m c) (arrN2 m c) (arrW m c) (arrM m c) := by
  unfold Pipeline.afterTail₀
  show StableHlo.after hostOps1 _ (Proc.devRef .tc main_v13) = _
  after_results
  refine (congrArg (fun x => Host.reduceAdd (F := Ideal) x (constant (F := Ideal) S_ FTy.f32 0#32) reducesTo_S8192x1_S_d0_1 h_S_)
    (out_arr m c)).trans ?_
  funext j
  show Ideal.hostReduceAdd reducesTo_S8192x1_S_d0_1 (lossCol m c) (Ideal.ofBits .f32 0#32) j = _
  rw [Ideal.hostReduceAdd_total _ (fun b => b.elim0), Ideal.ofBits_zero_f32, zero_add]
  exact sum_lossCol m c

end Blocks

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v13) = (fun _ => Cert.Loss.totalK (arrN1 m c) (arrN2 m c) (arrW m c) (arrM m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v13 (Pipeline.mem_restRefs_of main_v13 (by decide) (by decide))).trans (total m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.KerValue

end
-- ==== Proof.RefValue.lean ====
/-
  The idealized reference's run with its result named: the sum of the 8192 row losses in the reference's form
  (row-normalised texts, similarities divided by the temperature, the shifted log-softmax with the row's largest
  similarity as the shift, the masked weighted mean).

  The reading goes stage by stage.  A text matrix is divided, row by row, by the larger of the row's Euclidean norm
  and the floor; the similarity of rows i and j is their inner product over the temperature; the shift of row i is
  the fold of max from -∞ over the row's similarities, which is their supremum; the log-softmax subtracts the shift
  and the logarithm of the row's sum of exponentials; the row loss is minus the mask-and-weight weighted sum of the
  log-probabilities over the floored mask count; the result is the sum of the row losses.  Every sum the program
  takes starts from the zero word, which adds nothing.
-/
import proofs.«161606_j53386443489488_1_alg».proof.Proof.RefRun
import proofs.«161606_j53386443489488_1_alg».proof.Proof.RefRead
import proofs.«161606_j53386443489488_1_alg».proof.Proof.Spec
import Idealize.ShloMosaic.Lib.StableHlo.Run
import Idealize.ShloMosaic.PureOps.Ideal.Laws
import Idealize.ShloMosaic.Lib.Pipeline.Value
import Idealize.ShloMosaic.Lib.ValueLayout
import Idealize.ShloMosaic.Lib.ValueIdxRank1

set_option maxRecDepth 16384

noncomputable section

namespace Cert.ReferenceIdeal.RefValue

open Idealize.ShloMosaic Idealize.ShloMosaic.ValueIdx Idealize.ShloMosaic.TcCoe Idealize.SL.Sem Cert.ReferenceIdeal
open scoped BigOperators

/-! ## Two facts about the extended reals -/

/-- The word of -∞ is the least extended real. -/
theorem negInf_word : Ideal.ofBits .f32 0xFF800000#32 = (⊥ : EReal) := by
  simp [Ideal.ofBits, Ideal.ieee]

/-- Folding max from the least element over a finite family is taking its supremum. -/
theorem fold_max_bot {ι : Type} [DecidableEq ι] (s : Finset ι) (f : ι → EReal) :
    s.fold (FloatOps.maximumf (F := Ideal) (φ := .f32)) (⊥ : EReal) f = s.sup f := by
  induction s using Finset.induction_on with
  | empty => rw [Finset.fold_empty, Finset.sup_empty]
  | insert a s ha ih =>
    rw [Finset.fold_insert ha, Finset.sup_insert, ih]
    rfl

/-- A [8192, 8192] matrix reduces along its columns to a vector of 8192 entries. -/
theorem rowsReduce : S8192x8192.Reduces [1] S8192 := by decide

/-- Row i with column j inserted is the entry (i, j). -/
theorem lift_row (i j : Fin 8192) : rowsReduce.lift (ix1 i) j = ix2 i j :=
  funext fun a => Fin.ext (by match a with | ⟨0, _⟩ => rfl | ⟨1, _⟩ => rfl)

section Texts

variable (x0 x1 : (⟨S8192x256, .f32⟩ : BufTy).Contents (Elt Ideal))

/-! ## The row normalisation of the first text matrix -/

theorem sumsq0_idx (i : Fin 8192) (k : Fin 256) : ReadP.idx_main_call0_v1 (ix1 i) k = ix2 i k :=
  funext fun a => Fin.ext (by match a with | ⟨0, _⟩ => rfl | ⟨1, _⟩ => rfl)

/-- Row i's sum of squares. -/
theorem sumsq0 (i : Fin 8192) :
    ReadP.val_main_call0_v1 (F := Ideal) x0 (ix1 i) = ∑ k : Fin 256, x0 (ix2 i k) * x0 (ix2 i k) := by
  rw [ReadP.val_main_call0_v1_apply, ReadP.val_main_call0_cst_apply]
  simp only [ReadP.val_main_call0_v0_apply, sumsq0_idx, Ideal.ofBits_def, Ideal.mulf_def, Ideal.ofBits_zero_f32, zero_add]

theorem norm0_idx (i : Fin 8192) (d : Fin 256) : ReadP.idx_main_call0_v2 (ReadP.idx_main_v3 (ix2 i d)) = ix1 i :=
  funext fun a => Fin.ext (by match a with | ⟨0, _⟩ => rfl)

/-- The first matrix, each row over the larger of its norm and the floor. -/
theorem normRows0 : ReadP.val_main_v4 (F := Ideal) x0 = Cert.Loss.normRows x0 := by
  funext p
  obtain ⟨i, d, rfl⟩ : ∃ (i : Fin 8192) (d : Fin 256), p = ix2 i d := ⟨p 0, p 1, eq_ix2 p⟩
  rw [ReadP.val_main_v4_apply, ReadP.val_main_v3_apply, ReadP.val_main_v2_apply, ReadP.val_main_v1_apply,
    ReadP.val_main_cst_apply, ReadP.val_main_v0_apply, ReadP.val_main_call0_v2_apply, norm0_idx, sumsq0]
  simp only [Ideal.hostDivf_def, Ideal.maximumf_def, Ideal.hostUnary_sqrt_def, Ideal.ofBits_def]
  rfl

/-! ## The row normalisation of the second text matrix -/

theorem sumsq1_idx (i : Fin 8192) (k : Fin 256) : ReadP.idx_main_call1_v1 (ix1 i) k = ix2 i k :=
  funext fun a => Fin.ext (by match a with | ⟨0, _⟩ => rfl | ⟨1, _⟩ => rfl)

/-- Row i's sum of squares. -/
theorem sumsq1 (i : Fin 8192) :
    ReadP.val_main_call1_v1 (F := Ideal) x1 (ix1 i) = ∑ k : Fin 256, x1 (ix2 i k) * x1 (ix2 i k) := by
  rw [ReadP.val_main_call1_v1_apply, ReadP.val_main_call1_cst_apply]
  simp only [ReadP.val_main_call1_v0_apply, sumsq1_idx, Ideal.ofBits_def, Ideal.mulf_def, Ideal.ofBits_zero_f32, zero_add]

theorem norm1_idx (i : Fin 8192) (d : Fin 256) : ReadP.idx_main_call1_v2 (ReadP.idx_main_v8 (ix2 i d)) = ix1 i :=
  funext fun a => Fin.ext (by match a with | ⟨0, _⟩ => rfl)

/-- The second matrix, each row over the larger of its norm and the floor. -/
theorem normRows1 : ReadP.val_main_v9 (F := Ideal) x1 = Cert.Loss.normRows x1 := by
  funext p
  obtain ⟨i, d, rfl⟩ : ∃ (i : Fin 8192) (d : Fin 256), p = ix2 i d := ⟨p 0, p 1, eq_ix2 p⟩
  rw [ReadP.val_main_v9_apply, ReadP.val_main_v8_apply, ReadP.val_main_v7_apply, ReadP.val_main_v6_apply,
    ReadP.val_main_cst_0_apply, ReadP.val_main_v5_apply, ReadP.val_main_call1_v2_apply, norm1_idx, sumsq1]
  simp only [Ideal.hostDivf_def, Ideal.maximumf_def, Ideal.hostUnary_sqrt_def, Ideal.ofBits_def]
  rfl

/-! ## The similarities -/

theorem sim_lidx (i j : Fin 8192) (k : Fin 256) : ReadP.lidx_main_v10 (ix2 i j) k = ix2 i k :=
  funext fun a => Fin.ext (by match a with | ⟨0, _⟩ => rfl | ⟨1, _⟩ => rfl)

theorem sim_ridx (i j : Fin 8192) (k : Fin 256) : ReadP.ridx_main_v10 (ix2 i j) k = ix2 j k :=
  funext fun a => Fin.ext (by match a with | ⟨0, _⟩ => rfl | ⟨1, _⟩ => rfl)

/-- Entry (i, j): the inner product of normalised rows i and j over the temperature. -/
theorem sim_eq (i j : Fin 8192) :
    ReadP.val_main_v12 (F := Ideal) x0 x1 (ix2 i j)
      = Cert.Loss.simR (Cert.Loss.normRows x0) (Cert.Loss.normRows x1) i j := by
  rw [ReadP.val_main_v12_apply, ReadP.val_main_v11_apply, ReadP.val_main_cst_1_apply, ReadP.val_main_v10_apply,
    normRows0, normRows1]
  simp only [sim_lidx, sim_ridx, Ideal.hostDivf_def, Ideal.ofBits_def]
  rfl

/-! ## The row shift -/

/-- The fold of max from -∞ over row i's similarities is the row's largest similarity. -/
theorem rowMax_fold (i : Fin 8192) :
    ReadP.val_main_call2_v0 (F := Ideal) x0 x1 (ix1 i)
      = Cert.Loss.rowMax (Cert.Loss.normRows x0) (Cert.Loss.normRows x1) i := by
  unfold ReadP.val_main_call2_v0
  rw [Host.reduce_eq_fold_single (FloatOps.maximumf (F := Ideal) (φ := .f32)) (ReadP.val_main_v12 (F := Ideal) x0 x1)
      (ReadP.val_main_call2_cst (F := Ideal)) Gen.reducesTo_S8192x8192_S8192_d1 rowsReduce Gen.h_S_ (ix1 i),
    ReadP.val_main_call2_cst_apply, Ideal.ofBits_def, negInf_word, fold_max_bot]
  unfold Cert.Loss.rowMax
  refine Finset.sup_congr rfl (fun j _ => ?_)
  exact (congrArg (ReadP.val_main_v12 (F := Ideal) x0 x1) (lift_row i j)).trans (sim_eq x0 x1 i j)

/-- Taking max with -∞ once more changes nothing. -/
theorem rowMax_eq (i : Fin 8192) :
    ReadP.val_main_call2_v2 (F := Ideal) x0 x1 (ix1 i)
      = Cert.Loss.rowMax (Cert.Loss.normRows x0) (Cert.Loss.normRows x1) i := by
  rw [ReadP.val_main_call2_v2_apply, ReadP.val_main_call2_v1_apply, ReadP.val_main_call2_cst_0_apply, rowMax_fold,
    Ideal.maximumf_def, Ideal.ofBits_def, negInf_word]
  exact max_eq_right bot_le

/-! ## The shifted log-softmax -/

theorem shift_idx (i j : Fin 8192) : ReadP.idx_main_call2_v3 (ReadP.idx_main_call2_v4 (ix2 i j)) = ix1 i :=
  funext fun a => Fin.ext (by match a with | ⟨0, _⟩ => rfl)

/-- Entry (i, j) less row i's shift. -/
theorem shifted_eq (i j : Fin 8192) :
    ReadP.val_main_call2_v5 (F := Ideal) x0 x1 (ix2 i j)
      = Cert.Loss.simR (Cert.Loss.normRows x0) (Cert.Loss.normRows x1) i j
        - Cert.Loss.rowMax (Cert.Loss.normRows x0) (Cert.Loss.normRows x1) i := by
  rw [ReadP.val_main_call2_v5_apply, ReadP.val_main_call2_v4_apply, ReadP.val_main_call2_v3_apply, shift_idx,
    rowMax_eq, sim_eq, Ideal.subf_def]

theorem sumexp_idx (i k : Fin 8192) : ReadP.idx_main_call2_v7 (ix1 i) k = ix2 i k :=
  funext fun a => Fin.ext (by match a with | ⟨0, _⟩ => rfl | ⟨1, _⟩ => rfl)

/-- Row i's sum of exponentials of the shifted similarities. -/
theorem sumexp_eq (i : Fin 8192) :
    ReadP.val_main_call2_v7 (F := Ideal) x0 x1 (ix1 i)
      = ∑ j' : Fin 8192, Ideal.exp (Cert.Loss.simR (Cert.Loss.normRows x0) (Cert.Loss.normRows x1) i j'
          - Cert.Loss.rowMax (Cert.Loss.normRows x0) (Cert.Loss.normRows x1) i) := by
  rw [ReadP.val_main_call2_v7_apply, ReadP.val_main_call2_cst_1_apply]
  simp only [ReadP.val_main_call2_v6_apply, sumexp_idx, shifted_eq, Ideal.hostUnary_exp_def, Ideal.ofBits_def,
    Ideal.ofBits_zero_f32, zero_add]

theorem logsum_idx (i j : Fin 8192) : ReadP.idx_main_call2_v8 (ReadP.idx_main_call2_v10 (ix2 i j)) = ix1 i :=
  funext fun a => Fin.ext (by match a with | ⟨0, _⟩ => rfl)

/-- Entry (i, j) of the log-softmax. -/
theorem logp_eq (i j : Fin 8192) :
    ReadP.val_main_v13 (F := Ideal) x0 x1 (ix2 i j)
      = Cert.Loss.logpR (Cert.Loss.normRows x0) (Cert.Loss.normRows x1)
          (Cert.Loss.rowMax (Cert.Loss.normRows x0) (Cert.Loss.normRows x1)) i j := by
  rw [ReadP.val_main_v13_apply, ReadP.val_main_call2_v10_apply, ReadP.val_main_call2_v9_apply,
    ReadP.val_main_call2_v8_apply, logsum_idx, sumexp_eq, shifted_eq, Ideal.subf_def, Ideal.hostUnary_log_def]
  rfl

end Texts

/-! ## The mask, the weights and the row losses -/

section Loss

variable (x0 x1 : (⟨S8192x256, .f32⟩ : BufTy).Contents (Elt Ideal))
  (x2 : (⟨S8192x8192, .f32⟩ : BufTy).Contents (Elt Ideal)) (x3 : (⟨S8192x8192, .i32⟩ : BufTy).Contents (Elt Ideal))

/-- A mask entry as a number. -/
theorem mask_eq (i j : Fin 8192) : ReadP.val_main_v14 (F := Ideal) x3 (ix2 i j) = Cert.Loss.mf x3 i j := rfl

theorem count_idx (i k : Fin 8192) : ReadP.idx_main_v15 (ix1 i) k = ix2 i k :=
  funext fun a => Fin.ext (by match a with | ⟨0, _⟩ => rfl | ⟨1, _⟩ => rfl)

/-- Row i's mask count, floored at one. -/
theorem count_eq (i : Fin 8192) :
    ReadP.val_main_v17 (F := Ideal) x3 (ix1 i) = max (Cert.Loss.sumC x3 i) Cert.Loss.one := by
  rw [ReadP.val_main_v17_apply, ReadP.val_main_v16_apply, ReadP.val_main_cst_3_apply, ReadP.val_main_v15_apply,
    ReadP.val_main_cst_2_apply]
  simp only [count_idx, mask_eq, Ideal.maximumf_def, Ideal.ofBits_def, Ideal.ofBits_zero_f32, zero_add]
  rfl

theorem wsum_idx (i k : Fin 8192) : ReadP.idx_main_v20 (ix1 i) k = ix2 i k :=
  funext fun a => Fin.ext (by match a with | ⟨0, _⟩ => rfl | ⟨1, _⟩ => rfl)

/-- Row i's mask-and-weight weighted sum of log-probabilities. -/
theorem wsum_eq (i : Fin 8192) :
    ReadP.val_main_v20 (F := Ideal) x0 x1 x2 x3 (ix1 i)
      = ∑ j : Fin 8192, Cert.Loss.mw x2 x3 i j
          * Cert.Loss.logpR (Cert.Loss.normRows x0) (Cert.Loss.normRows x1)
              (Cert.Loss.rowMax (Cert.Loss.normRows x0) (Cert.Loss.normRows x1)) i j := by
  rw [ReadP.val_main_v20_apply, ReadP.val_main_cst_4_apply]
  simp only [ReadP.val_main_v19_apply, ReadP.val_main_v18_apply, wsum_idx, mask_eq, logp_eq, Ideal.mulf_def,
    Ideal.ofBits_def, Ideal.ofBits_zero_f32, zero_add]
  rfl

/-- Row i's loss. -/
theorem loss_eq (i : Fin 8192) :
    ReadP.val_main_v22 (F := Ideal) x0 x1 x2 x3 (ix1 i)
      = Cert.Loss.lossR (Cert.Loss.normRows x0) (Cert.Loss.normRows x1) x2 x3
          (Cert.Loss.rowMax (Cert.Loss.normRows x0) (Cert.Loss.normRows x1)) i := by
  rw [ReadP.val_main_v22_apply, ReadP.val_main_v21_apply, wsum_eq, count_eq, Ideal.hostDivf_def, Ideal.hostNegf_def,
    Ideal.negf_def]
  rfl

/-- The result: the sum of the row losses. -/
theorem total_eq :
    ReadP.val_main_v23 (F := Ideal) x0 x1 x2 x3
      = fun _ => Cert.Loss.totalR (Cert.Loss.normRows x0) (Cert.Loss.normRows x1) x2 x3
          (Cert.Loss.rowMax (Cert.Loss.normRows x0) (Cert.Loss.normRows x1)) := by
  funext z
  rw [ReadP.val_main_v23_apply, ReadP.val_main_cst_5_apply, Ideal.ofBits_def, Ideal.ofBits_zero_f32, zero_add]
  unfold Cert.Loss.totalR
  exact (Fintype.sum_equiv (idxEquiv1 (n := 8192)).symm _ _ (fun i => (loss_eq x0 x1 x2 x3 i).symm)).symm

end Loss

/-! ## The run -/

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v23)
        = (fun _ => Cert.Loss.totalR (Cert.Loss.normRows (m ((c.tc : Thread nD τ).loc main_arg0))) (Cert.Loss.normRows (m ((c.tc : Thread nD τ).loc main_arg1)))
            (m ((c.tc : Thread nD τ).loc main_arg2)) (m ((c.tc : Thread nD τ).loc main_arg3))
            (Cert.Loss.rowMax (Cert.Loss.normRows (m ((c.tc : Thread nD τ).loc main_arg0))) (Cert.Loss.normRows (m ((c.tc : Thread nD τ).loc main_arg1)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono
    (fun _ h c => ⟨by rw [(h c).1, ReadP.val_main_v23_eq, total_eq]; rfl, (h c).2⟩)
    (Cert.ReferenceIdeal.ValueP.run (F := Ideal) m ρ)

end Cert.ReferenceIdeal.RefValue

end
-- ==== Proof.lean ====
/-
  The certificate: a contrastive loss over row-normalised texts.

  For texts `x1 x2 : [8192, 256]`, weights `w` and an integer mask `mk : [8192, 8192]`, both programs normalise the rows of
  the texts, form the similarities `dot i j / T` and return the sum over the rows of
    `loss i = -(∑ j, m i j * w i j * logp i j) / max (∑ j, m i j) 1`,  `logp = log_softmax` of row `i`.
  The reference computes `logp` with the row's largest similarity subtracted first.  The kernel streams column tiles and
  keeps four running row sums `A = ∑ mw * sim`, `S = ∑ mw`, `E = ∑ exp sim`, `C = ∑ m`, and ends a row with
  `(0 - (A - log E * S)) / max C 1`; its similarity is `dot * κ`, the scale `κ` being the reciprocal of the temperature's
  binary value, which the certificate's table names exactly.

  * The three frames: the two kernels' are the generated frame proofs; the reference's is its run with the result dropped.
  * `preserves`: the one rewrite of the idealization is the named scale.
  * `algebraic`: the kernel's run ends at the four-sums form of the normalised texts (the value read off the frame run,
    point by point), the reference's run at the shifted log-softmax form; on finite inputs every quantity is a real
    number, the shift cancels inside the logarithm, `x / T = x * κ`, and the weighted sum distributes: the two forms are
    one number.
-/
import proofs.«161606_j53386443489488_1_alg».proof.Defs
import proofs.«161606_j53386443489488_1_alg».proof.Proof.Gen.Kernel
import proofs.«161606_j53386443489488_1_alg».proof.Proof.Gen.Kernel.Frame
import proofs.«161606_j53386443489488_1_alg».proof.Proof.Gen.KernelIdeal
import proofs.«161606_j53386443489488_1_alg».proof.Proof.Gen.KernelIdeal.Frame
import proofs.«161606_j53386443489488_1_alg».proof.Proof.Gen.ReferenceIdeal
import proofs.«161606_j53386443489488_1_alg».proof.Proof.Gen.Pre_finite_inputs
import proofs.«161606_j53386443489488_1_alg».proof.Proof.Algebra
import proofs.«161606_j53386443489488_1_alg».proof.Proof.Finite
import proofs.«161606_j53386443489488_1_alg».proof.Proof.KerBlocks
import proofs.«161606_j53386443489488_1_alg».proof.Proof.KerValue
import proofs.«161606_j53386443489488_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.RefValue.run m ρ)

/-- The idealization's one rewrite: the scale `20.0` is named the reciprocal of the temperature's binary value. -/
theorem preserves : Cert.preserves_Kernel_KernelIdeal :=
  IdealRules.named_const.statement Cert.KernelIdeal.κ "inv_temperature" .f32 0x41A00000#32
    ((268435456 / 13421773 : ℝ) : EReal) rfl

/-- On finite inputs the four-sums form of the kernel and the shifted log-softmax form of the reference are one number. -/
theorem algebraic : Cert.algebraic_KernelIdeal_ReferenceIdeal := by
  intro m ρ m' ρ' hpre hagree
  refine ⟨fun c _ => Cert.Loss.totalK (Cert.KernelIdeal.Tile.arrN1 m c) (Cert.KernelIdeal.Tile.arrN2 m c)
      (Cert.KernelIdeal.Tile.arrW m c) (Cert.KernelIdeal.Tile.arrM m c), Cert.KernelIdeal.KerValue.run m ρ, ?_⟩
  refine (θ_run Cert.ReferenceIdeal.defs _ _).mono (fun _ h c => ⟨(h c).1.trans ?_, (h c).2⟩)
    (Cert.ReferenceIdeal.RefValue.run m' ρ')
  obtain ⟨h1, h2, hw⟩ := Cert.Finite.of_pre _ _ _ _ (hpre c)
  funext _
  show Cert.Loss.totalR _ _ _ _ _ = Cert.Loss.totalK (Cert.KernelIdeal.Tile.arrN1 m c) (Cert.KernelIdeal.Tile.arrN2 m c)
    (Cert.KernelIdeal.Tile.arrW m c) (Cert.KernelIdeal.Tile.arrM m c)
  rw [(hagree c).1, (hagree c).2.1, (hagree c).2.2.1, (hagree c).2.2.2,
    Cert.KernelIdeal.Blocks.arrN1_eq, Cert.KernelIdeal.Blocks.arrN2_eq, Cert.KernelIdeal.Blocks.arrW_eq,
    Cert.KernelIdeal.Blocks.arrM_eq]
  exact Cert.Loss.totalR_eq_totalK _ _ _ _ _ (Cert.Loss.normRows_real _ h1) (Cert.Loss.normRows_real _ h2) hw
    (Cert.Loss.rowMax_real _ _ (Cert.Loss.normRows_real _ h1) (Cert.Loss.normRows_real _ h2))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
